-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x128 : Shape := ⟨3, ![64, 64, 128]⟩
abbrev S64x64x8192 : Shape := ⟨3, ![64, 64, 8192]⟩
abbrev S64 : Shape := ⟨1, ![64]⟩
abbrev S64x128 : Shape := ⟨2, ![64, 128]⟩
abbrev S8x64 : Shape := ⟨2, ![8, 64]⟩
abbrev S8 : Shape := ⟨1, ![8]⟩
abbrev S_ : Shape := ⟨0, ![]⟩

class Facts : Prop where
  bcast_S_S64x64x128 : S_.BroadcastsInDim S64x64x128 (![] : Fin 0 → Fin S64x64x128.rank)
  reducesTo_S64x64x128_S_d0_1_2 : S64x64x128.ReducesTo [0, 1, 2] S_
  h_S_ : 0 < S_.numel
  bcast_S_S64x64x8192 : S_.BroadcastsInDim S64x64x8192 (![] : Fin 0 → Fin S64x64x8192.rank)
  reducesTo_S64x64x8192_S_d0_1_2 : S64x64x8192.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S8x64 : S_.BroadcastsInDim S8x64 (![] : Fin 0 → Fin S8x64.rank)
  reducesTo_S8x64_S_d0_1 : S8x64.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8x64 .f32) (main_arg6 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64 .f32 := Host.absf main_arg5
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S64x64x128 .f32) (main_arg1 : FVec F S64x64x8192 .f32) (main_arg2 : IVec S64 32) (main_arg3 : FVec F S64x128 .f32) (main_arg4 : FVec F S64 .f32) (main_arg5 : FVec F S8x64 .f32) (main_arg6 : FVec F S8 .f32) : IVec S_ 1 :=
  let main_v0 : FVec F S64x64x128 .f32 := Host.absf main_arg0
  let main_cst : FVec F S_ .f32 := constant S_ .f32 0x7F800000#32
  let main_v1 : FVec F S64x64x128 .f32 := broadcastInDim S64x64x128 ![] bcast_S_S64x64x128 main_cst
  let main_v2 : IVec S64x64x128 1 := cmpf .olt main_v0 main_v1
  let main_c : IVec S_ 1 := constantI S_ 1 1#1
  let main_v3 : IVec S_ 1 := (fun x v => Host.reduce IntOp.andi x v reducesTo_S64x64x128_S_d0_1_2 h_S_) main_v2 main_c
  let main_v4 : FVec F S64x64x8192 .f32 := Host.absf main_arg1
  let main_cst_0 : FVec F S_ .f32 := constant S_ .f32 0x7F800000#32
  let main_v5 : FVec F S64x64x8192 .f32 := broadcastInDim S64x64x8192 ![] bcast_S_S64x64x8192 main_cst_0
  let main_v6 : IVec S64x64x8192 1 := cmpf .olt main_v4 main_v5
  let main_c_1 : IVec S_ 1 := constantI S_ 1 1#1
  let main_v7 : IVec S_ 1 := (fun x v => Host.reduce IntOp.andi x v reducesTo_S64x64x8192_S_d0_1_2 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S64x64x128 : Shape := ⟨3, ![64, 64, 128]⟩
abbrev S64x64x8192 : Shape := ⟨3, ![64, 64, 8192]⟩
abbrev S64 : Shape := ⟨1, ![64]⟩
abbrev S64x128 : Shape := ⟨2, ![64, 128]⟩
abbrev S8x64 : Shape := ⟨2, ![8, 64]⟩
abbrev S8 : Shape := ⟨1, ![8]⟩
abbrev S64x4096x128 : Shape := ⟨3, ![64, 4096, 128]⟩
abbrev S1x64 : Shape := ⟨2, ![1, 64]⟩
abbrev S8x1 : Shape := ⟨2, ![8, 1]⟩
abbrev S1 : Shape := ⟨1, ![1]⟩
abbrev S_ : Shape := ⟨0, ![]⟩
abbrev S1x1 : Shape := ⟨2, ![1, 1]⟩
abbrev S64x8x4096 : Shape := ⟨3, ![64, 8, 4096]⟩
abbrev S64x8x8 : Shape := ⟨3, ![64, 8, 8]⟩
abbrev S1x4096x128 : Shape := ⟨3, ![1, 4096, 128]⟩
abbrev S1x64x128 : Shape := ⟨3, ![1, 64, 128]⟩
abbrev S1x8x4096 : Shape := ⟨3, ![1, 8, 4096]⟩
abbrev S1x8x8 : Shape := ⟨3, ![1, 8, 8]⟩
abbrev S4096x128 : Shape := ⟨2, ![4096, 128]⟩
abbrev S4096x64 : Shape := ⟨2, ![4096, 64]⟩
abbrev S8x4096 : Shape := ⟨2, ![8, 4096]⟩
abbrev S8x8 : Shape := ⟨2, ![8, 8]⟩
abbrev S64x4096 : Shape := ⟨2, ![64, 4096]⟩
abbrev S64x64x64 : Shape := ⟨3, ![64, 64, 64]⟩

abbrev nBuf : Space → Nat
  | .hbm => 36
  | .vmem => 13
  | .smem => 0
  | _ => 0

abbrev bufTy : (tb : Table) → Fin (tcTables nBuf tb) → BufTy
  | .hbm, ⟨0, _⟩ => ⟨S64x64x128, .f32⟩
  | .hbm, ⟨1, _⟩ => ⟨S64x64x8192, .f32⟩
  | .hbm, ⟨2, _⟩ => ⟨S64, .i32⟩
  | .hbm, ⟨3, _⟩ => ⟨S64x128, .f32⟩
  | .hbm, ⟨4, _⟩ => ⟨S64, .f32⟩
  | .hbm, ⟨5, _⟩ => ⟨S8x64, .f32⟩
  | .hbm, ⟨6, _⟩ => ⟨S8, .f32⟩
  | .hbm, ⟨7, _⟩ => ⟨S64x4096x128, .f32⟩
  | .hbm, ⟨8, _⟩ => ⟨S64x128, .bf16⟩
  | .hbm, ⟨9, _⟩ => ⟨S8x64, .bf16⟩
  | .hbm, ⟨10, _⟩ => ⟨S1x64, .f32⟩
  | .hbm, ⟨11, _⟩ => ⟨S8x1, .f32⟩
  | .hbm, ⟨12, _⟩ => ⟨S1, .i32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S64x8x4096, .f32⟩
  | .hbm, ⟨18, _⟩ => ⟨S64x8x8, .f32⟩
  | .hbm, ⟨19, _⟩ => ⟨S_, .f32⟩
  | .hbm, ⟨20, _⟩ => ⟨S64x4096, .f32⟩
  | .hbm, ⟨21, _⟩ => ⟨S64x64x64, .f32⟩
  | .hbm, ⟨22, _⟩ => ⟨S8x8, .i32⟩
  | .hbm, ⟨23, _⟩ => ⟨S8x8, .i32⟩
  | .hbm, ⟨24, _⟩ => ⟨S_, .i32⟩
  | .hbm, ⟨25, _⟩ => ⟨S8x8, .i32⟩
  | .hbm, ⟨26, _⟩ => ⟨S8x8, .i32⟩
  | .hbm, ⟨27, _⟩ => ⟨S8x8, .i1⟩
  | .hbm, ⟨28, _⟩ => ⟨S8x8, .f32⟩
  | .hbm, ⟨29, _⟩ => ⟨S1x8x8, .f32⟩
  | .hbm, ⟨30, _⟩ => ⟨S64x8x8, .f32⟩
  | .hbm, ⟨31, _⟩ => ⟨S64x8x8, .f32⟩
  | .hbm, ⟨32, _⟩ => ⟨S64x8x8, .f32⟩
  | .hbm, ⟨33, _⟩ => ⟨S_, .f32⟩
  | .hbm, ⟨34, _⟩ => ⟨S_, .f32⟩
  | .hbm, ⟨35, _⟩ => ⟨S1, .f32⟩
  | .local _ .vmem, ⟨0, _⟩ => ⟨S1x4096x128, .f32⟩
  | .local _ .vmem, ⟨1, _⟩ => ⟨S1x4096x128, .f32⟩
  | .local _ .vmem, ⟨2, _⟩ => ⟨S1x64x128, .f32⟩
  | .local _ .vmem, ⟨3, _⟩ => ⟨S1x64x128, .f32⟩
  | .local _ .vmem, ⟨4, _⟩ => ⟨S64x128, .bf16⟩
  | .local _ .vmem, ⟨5, _⟩ => ⟨S1x64, .f32⟩
  | .local _ .vmem, ⟨6, _⟩ => ⟨S8x64, .bf16⟩
  | .local _ .vmem, ⟨7, _⟩ => ⟨S8x1, .f32⟩
  | .local _ .vmem, ⟨8, _⟩ => ⟨S1x1, .f32⟩
  | .local _ .vmem, ⟨9, _⟩ => ⟨S1x8x4096, .f32⟩
  | .local _ .vmem, ⟨10, _⟩ => ⟨S1x8x4096, .f32⟩
  | .local _ .vmem, ⟨11, _⟩ => ⟨S1x8x8, .f32⟩
  | .local _ .vmem, ⟨12, _⟩ => ⟨S1x8x8, .f32⟩
  | _, _ => ⟨S64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S64x64x8192_S64x4096x128 : S64x64x8192.ShapeCasts S64x4096x128
  bitsLt_bf16_f32 : FTy.bits .bf16 < FTy.bits .f32
  shapeCasts_S64_S1x64 : S64.ShapeCasts S1x64
  shapeCasts_S8_S8x1 : S8.ShapeCasts S8x1
  slices_S64_S1_0 : S64.Slices ![0] S1
  shapeCasts_S1_S_ : S1.ShapeCasts S_
  shapeCasts_S_S1x1 : S_.ShapeCasts S1x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S1x64x128_S1x64x128 : S1x64x128.ShapeCasts S1x64x128
  broadcasts_S1x64x128_S64x64x128 : S1x64x128.Broadcasts S64x64x128
  shapeCasts_S64x64x128_S4096x128 : S64x64x128.ShapeCasts S4096x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x64 : S1x1.Broadcasts S4096x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x4096 : S8x1.Broadcasts S8x4096
  reduces_S8x4096_S8 : S8x4096.Reduces [1] S8
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  inb_S1x8x8_S1x8x8_0_0_0 : ∀ a, (![0, 0, 0] : Fin 3 → Nat) a + S1x8x8.size a ≤ S1x8x8.size a
  h_S1x8x8 : 0 < S1x8x8.numel
  shapeCasts_S1x8x8_S8x8 : S1x8x8.ShapeCasts S8x8
  shapeCasts_S8x8_S1x8x8 : S8x8.ShapeCasts S1x8x8
  reducesTo_S64x8x4096_S64x4096_d1 : S64x8x4096.ReducesTo [1] S64x4096
  h_S_ : 0 < S_.numel
  shapeCasts_S64x4096_S64x64x64 : S64x4096.ShapeCasts S64x64x64
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S64x8x8_0_1_2 : S1x8x8.BroadcastsInDim S64x8x8 (![0, 1, 2] : Fin 3 → Fin S64x8x8.rank)
  reducesTo_S64x8x8_S_d0_1_2 : S64x8x8.ReducesTo [0, 1, 2] S_
  shapeCasts_S_S1 : S_.ShapeCasts S1
  dot_S4096x128_S64x128_S4096x64_1_1_0_0_n_n_wf : DotDims.WF S4096x128 S64x128 S4096x64 [1] [1] [0] [0] [] []
  dot_S8x64_S4096x64_S8x4096_1_1_0_0_n_n_wf : DotDims.WF S8x64 S4096x64 S8x4096 [1] [1] [0] [0] [] []
  dot_S8x4096_S8x4096_S8x8_1_1_0_0_n_n_wf : DotDims.WF S8x4096 S8x4096 S8x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S64x64x128.size a
  hwx0_1 : ∀ i : grid0.Coords, EltTy.bits .f32 = 32 ∨ (Rect.block (s := S64x64x128) S1x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .bf16 = 32 ∨ (Rect.block (s := S8x64) S8x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x4096.size a ≤ S64x8x4096.size a
  hwx0_7 : ∀ i : grid0.Coords, EltTy.bits .f32 = 32 ∨ (Rect.block (s := S64x8x4096) S1x8x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x8.size a ≤ S64x8x8.size a
  hwx0_8 : ∀ i : grid0.Coords, EltTy.bits .f32 = 32 ∨ (Rect.block (s := S64x8x8) S1x8x8.size (cc0_transform_8 i) (hinb0_8 i)).WholeWords (EltTy.packing .f32)

variable [Facts₀]

def dot_S4096x128_S64x128_S4096x64_1_1_0_0_n_n : DotDims S4096x128 S64x128 S4096x64 where
  lhsContracting := [1]
  rhsContracting := [1]
  lhsNonContracting := [0]
  rhsNonContracting := [0]
  lhsBatch := []
  rhsBatch := []
  wf := dot_S4096x128_S64x128_S4096x64_1_1_0_0_n_n_wf
def dot_S8x64_S4096x64_S8x4096_1_1_0_0_n_n : DotDims S8x64 S4096x64 S8x4096 where
  lhsContracting := [1]
  rhsContracting := [1]
  lhsNonContracting := [0]
  rhsNonContracting := [0]
  lhsBatch := []
  rhsBatch := []
  wf := dot_S8x64_S4096x64_S8x4096_1_1_0_0_n_n_wf
def dot_S8x4096_S8x4096_S8x8_1_1_0_0_n_n : DotDims S8x4096 S8x4096 S8x8 where
  lhsContracting := [1]
  rhsContracting := [1]
  lhsNonContracting := [0]
  rhsNonContracting := [0]
  lhsBatch := []
  rhsBatch := []
  wf := dot_S8x4096_S8x4096_S8x8_1_1_0_0_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1x8x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1x8x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x64x128 : Shape := ⟨3, ![64, 64, 128]⟩
abbrev S64x64x8192 : Shape := ⟨3, ![64, 64, 8192]⟩
abbrev S64 : Shape := ⟨1, ![64]⟩
abbrev S64x128 : Shape := ⟨2, ![64, 128]⟩
abbrev S8x64 : Shape := ⟨2, ![8, 64]⟩
abbrev S8 : Shape := ⟨1, ![8]⟩
abbrev S64x4096x128 : Shape := ⟨3, ![64, 4096, 128]⟩
abbrev S1x64x1x64x1x128 : Shape := ⟨6, ![1, 64, 1, 64, 1, 128]⟩
abbrev S1x64x64x64x1x128 : Shape := ⟨6, ![1, 64, 64, 64, 1, 128]⟩
abbrev S1 : Shape := ⟨1, ![1]⟩
abbrev S_ : Shape := ⟨0, ![]⟩
abbrev S64x4096x64 : Shape := ⟨3, ![64, 4096, 64]⟩
abbrev S1x1x64 : Shape := ⟨3, ![1, 1, 64]⟩
abbrev S64x4096x8 : Shape := ⟨3, ![64, 4096, 8]⟩
abbrev S1x1x8 : Shape := ⟨3, ![1, 1, 8]⟩
abbrev S64x8x4096 : Shape := ⟨3, ![64, 8, 4096]⟩
abbrev S64x8 : Shape := ⟨2, ![64, 8]⟩
abbrev S64x8x1 : Shape := ⟨3, ![64, 8, 1]⟩
abbrev S64x4096 : Shape := ⟨2, ![64, 4096]⟩
abbrev S64x64x64 : Shape := ⟨3, ![64, 64, 64]⟩
abbrev S64x8x8 : Shape := ⟨3, ![64, 8, 8]⟩
abbrev S8x8 : Shape := ⟨2, ![8, 8]⟩
abbrev S1x8x8 : Shape := ⟨3, ![1, 8, 8]⟩

abbrev nBuf : Space → Nat
  | .hbm => 60
  | .vmem => 0
  | .smem => 0
  | _ => 0

abbrev bufTy : (tb : Table) → Fin (tcTables nBuf tb) → BufTy
  | .hbm, ⟨0, _⟩ => ⟨S64x64x128, .f32⟩
  | .hbm, ⟨1, _⟩ => ⟨S64x64x8192, .f32⟩
  | .hbm, ⟨2, _⟩ => ⟨S64, .i32⟩
  | .hbm, ⟨3, _⟩ => ⟨S64x128, .f32⟩
  | .hbm, ⟨4, _⟩ => ⟨S64, .f32⟩
  | .hbm, ⟨5, _⟩ => ⟨S8x64, .f32⟩
  | .hbm, ⟨6, _⟩ => ⟨S8, .f32⟩
  | .hbm, ⟨7, _⟩ => ⟨S64x4096x128, .f32⟩
  | .hbm, ⟨8, _⟩ => ⟨S1x64x1x64x1x128, .f32⟩
  | .hbm, ⟨9, _⟩ => ⟨S1x64x64x64x1x128, .f32⟩
  | .hbm, ⟨10, _⟩ => ⟨S64x4096x128, .f32⟩
  | .hbm, ⟨11, _⟩ => ⟨S64x4096x128, .f32⟩
  | .hbm, ⟨12, _⟩ => ⟨S1, .i32⟩
  | .hbm, ⟨13, _⟩ => ⟨S_, .i32⟩
  | .hbm, ⟨14, _⟩ => ⟨S_, .f32⟩
  | .hbm, ⟨15, _⟩ => ⟨S_, .f32⟩
  | .hbm, ⟨16, _⟩ => ⟨S64x4096x64, .f32⟩
  | .hbm, ⟨17, _⟩ => ⟨S1x1x64, .f32⟩
  | .hbm, ⟨18, _⟩ => ⟨S64x4096x64, .f32⟩
  | .hbm, ⟨19, _⟩ => ⟨S64x4096x64, .f32⟩
  | .hbm, ⟨20, _⟩ => ⟨S64x4096x64, .f32⟩
  | .hbm, ⟨21, _⟩ => ⟨S64x4096x64, .f32⟩
  | .hbm, ⟨22, _⟩ => ⟨S64x4096x64, .f32⟩
  | .hbm, ⟨23, _⟩ => ⟨S64x4096x8, .f32⟩
  | .hbm, ⟨24, _⟩ => ⟨S1x1x8, .f32⟩
  | .hbm, ⟨25, _⟩ => ⟨S64x4096x8, .f32⟩
  | .hbm, ⟨26, _⟩ => ⟨S64x4096x8, .f32⟩
  | .hbm, ⟨27, _⟩ => ⟨S64x8x4096, .f32⟩
  | .hbm, ⟨28, _⟩ => ⟨S_, .f32⟩
  | .hbm, ⟨29, _⟩ => ⟨S64x8, .f32⟩
  | .hbm, ⟨30, _⟩ => ⟨S_, .f32⟩
  | .hbm, ⟨31, _⟩ => ⟨S64x8, .f32⟩
  | .hbm, ⟨32, _⟩ => ⟨S64x8, .f32⟩
  | .hbm, ⟨33, _⟩ => ⟨S64x8x1, .f32⟩
  | .hbm, ⟨34, _⟩ => ⟨S64x8x4096, .f32⟩
  | .hbm, ⟨35, _⟩ => ⟨S64x8x4096, .f32⟩
  | .hbm, ⟨36, _⟩ => ⟨S64x8x4096, .f32⟩
  | .hbm, ⟨37, _⟩ => ⟨S_, .f32⟩
  | .hbm, ⟨38, _⟩ => ⟨S64x8, .f32⟩
  | .hbm, ⟨39, _⟩ => ⟨S64x8x1, .f32⟩
  | .hbm, ⟨40, _⟩ => ⟨S64x8x4096, .f32⟩
  | .hbm, ⟨41, _⟩ => ⟨S64x8x4096, .f32⟩
  | .hbm, ⟨42, _⟩ => ⟨S_, .f32⟩
  | .hbm, ⟨43, _⟩ => ⟨S64x4096, .f32⟩
  | .hbm, ⟨44, _⟩ => ⟨S64x64x64, .f32⟩
  | .hbm, ⟨45, _⟩ => ⟨S64x8x8, .f32⟩
  | .hbm, ⟨46, _⟩ => ⟨S8x8, .i32⟩
  | .hbm, ⟨47, _⟩ => ⟨S8x8, .i32⟩
  | .hbm, ⟨48, _⟩ => ⟨S_, .i32⟩
  | .hbm, ⟨49, _⟩ => ⟨S8x8, .i32⟩
  | .hbm, ⟨50, _⟩ => ⟨S8x8, .i32⟩
  | .hbm, ⟨51, _⟩ => ⟨S8x8, .i1⟩
  | .hbm, ⟨52, _⟩ => ⟨S8x8, .f32⟩
  | .hbm, ⟨53, _⟩ => ⟨S1x8x8, .f32⟩
  | .hbm, ⟨54, _⟩ => ⟨S64x8x8, .f32⟩
  | .hbm, ⟨55, _⟩ => ⟨S64x8x8, .f32⟩
  | .hbm, ⟨56, _⟩ => ⟨S64x8x8, .f32⟩
  | .hbm, ⟨57, _⟩ => ⟨S_, .f32⟩
  | .hbm, ⟨58, _⟩ => ⟨S_, .f32⟩
  | .hbm, ⟨59, _⟩ => ⟨S1, .f32⟩
  | _, _ => ⟨S64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]

class Facts₀ : Prop where
  shapeCasts_S64x64x8192_S64x4096x128 : S64x64x8192.ShapeCasts S64x4096x128
  shapeCasts_S64x64x128_S1x64x1x64x1x128 : S64x64x128.ShapeCasts S1x64x1x64x1x128
  bcast_S1x64x1x64x1x128_S1x64x64x64x1x128_0_1_2_3_4_5 : S1x64x1x64x1x128.BroadcastsInDim S1x64x64x64x1x128 (![0, 1, 2, 3, 4, 5] : Fin 6 → Fin S1x64x64x64x1x128.rank)
  shapeCasts_S1x64x64x64x1x128_S64x4096x128 : S1x64x64x64x1x128.ShapeCasts S64x4096x128
  slices_S64_S1_0 : S64.Slices ![0] S1
  shapeCasts_S1_S_ : S1.ShapeCasts S_
  bcast_S64_S1x1x64_2 : S64.BroadcastsInDim S1x1x64 (![2] : Fin 1 → Fin S1x1x64.rank)
  bcast_S1x1x64_S64x4096x64_0_1_2 : S1x1x64.BroadcastsInDim S64x4096x64 (![0, 1, 2] : Fin 3 → Fin S64x4096x64.rank)
  bcast_S_S64x4096x64 : S_.BroadcastsInDim S64x4096x64 (![] : Fin 0 → Fin S64x4096x64.rank)
  bcast_S8_S1x1x8_2 : S8.BroadcastsInDim S1x1x8 (![2] : Fin 1 → Fin S1x1x8.rank)
  bcast_S1x1x8_S64x4096x8_0_1_2 : S1x1x8.BroadcastsInDim S64x4096x8 (![0, 1, 2] : Fin 3 → Fin S64x4096x8.rank)
  transposes_S64x4096x8_S64x8x4096_0_2_1 : S64x4096x8.Transposes [0, 2, 1] S64x8x4096
  reducesTo_S64x8x4096_S64x8_d2 : S64x8x4096.ReducesTo [2] S64x8
  h_S_ : 0 < S_.numel
  bcast_S_S64x8 : S_.BroadcastsInDim S64x8 (![] : Fin 0 → Fin S64x8.rank)
  bcast_S64x8_S64x8x1_0_1 : S64x8.BroadcastsInDim S64x8x1 (![0, 1] : Fin 2 → Fin S64x8x1.rank)
  bcast_S64x8x1_S64x8x4096_0_1_2 : S64x8x1.BroadcastsInDim S64x8x4096 (![0, 1, 2] : Fin 3 → Fin S64x8x4096.rank)
  reducesTo_S64x8x4096_S64x4096_d1 : S64x8x4096.ReducesTo [1] S64x4096
  shapeCasts_S64x4096_S64x64x64 : S64x4096.ShapeCasts S64x64x64
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S64x8x8_0_1_2 : S1x8x8.BroadcastsInDim S64x8x8 (![0, 1, 2] : Fin 3 → Fin S64x8x8.rank)
  reducesTo_S64x8x8_S_d0_1_2 : S64x8x8.ReducesTo [0, 1, 2] S_
  shapeCasts_S_S1 : S_.ShapeCasts S1
  dot_S64x4096x128_S64x128_S64x4096x64_2_1_01_0_n_n_wf : DotDims.WF S64x4096x128 S64x128 S64x4096x64 [2] [1] [0, 1] [0] [] []
  dot_S64x4096x64_S8x64_S64x4096x8_2_1_01_0_n_n_wf : DotDims.WF S64x4096x64 S8x64 S64x4096x8 [2] [1] [0, 1] [0] [] []
  dot_S64x8x4096_S64x8x4096_S64x8x8_2_2_1_1_0_0_wf : DotDims.WF S64x8x4096 S64x8x4096 S64x8x8 [2] [2] [1] [1] [0] [0]

variable [Facts₀]

def dot_S64x4096x128_S64x128_S64x4096x64_2_1_01_0_n_n : DotDims S64x4096x128 S64x128 S64x4096x64 where
  lhsContracting := [2]
  rhsContracting := [1]
  lhsNonContracting := [0, 1]
  rhsNonContracting := [0]
  lhsBatch := []
  rhsBatch := []
  wf := dot_S64x4096x128_S64x128_S64x4096x64_2_1_01_0_n_n_wf
def dot_S64x4096x64_S8x64_S64x4096x8_2_1_01_0_n_n : DotDims S64x4096x64 S8x64 S64x4096x8 where
  lhsContracting := [2]
  rhsContracting := [1]
  lhsNonContracting := [0, 1]
  rhsNonContracting := [0]
  lhsBatch := []
  rhsBatch := []
  wf := dot_S64x4096x64_S8x64_S64x4096x8_2_1_01_0_n_n_wf
def dot_S64x8x4096_S64x8x4096_S64x8x8_2_2_1_1_0_0 : DotDims S64x8x4096 S64x8x4096 S64x8x8 where
  lhsContracting := [2]
  rhsContracting := [2]
  lhsNonContracting := [1]
  rhsNonContracting := [1]
  lhsBatch := [0]
  rhsBatch := [0]
  wf := dot_S64x8x4096_S64x8x4096_S64x8x8_2_2_1_1_0_0_wf

class Facts : Prop extends Facts₀ where

variable [Facts]
-- ==== Proof.Spec.lean ====
/-
  What both programs compute, written once over the extended reals.

  One batch. Let `nb` be the batch's 4096 × 128 neighbour rows, row `l = n·64 + t` belonging to neighbour `n` and
  time step `t`, and `nd` its 64 × 128 node rows. Then
    H l d   = nb l d · nd (l mod 64) d                          (the node rows tiled under every neighbour)
    s₁ l a  = (Σ_d H l d · W1 a d + b1 a) / sc                  (first linear layer, scaled)
    u l a   = tanh (s₁ l a)
    s₂ h l  = Σ_a u l a · W2 h a + b2 h                         (second linear layer, one row per hop)
    A h l   = exp (s₂ h l − M h) / Σ_l' exp (s₂ h l' − M h),    M h = max (−∞, max_l s₂ h l)   (softmax along l)
    G h g   = Σ_l A h l · A g l                                 (the hops' Gram matrix)
  The whole arrays are these, batch by batch.
-/
import Idealize.ShloMosaic.PureOps.Ideal
import Idealize.ShloMosaic.Lib.ValueIdx

noncomputable section

namespace Cert.Attn

open Idealize.ShloMosaic Idealize.ShloMosaic.ValueIdx

/-- Row `l = n·64 + t` of the tiled node block is node row `t`. -/
def tileRow (l : Fin 4096) : Fin 64 := ⟨l.val % 64, Nat.mod_lt _ (by decide)⟩

/-- The word of `−∞`, kept as its pattern: both programs start their maxima from it. -/
def negInf : EReal := Ideal.ofBits .f32 0xFF800000#32

section Batch

variable (nb : Fin 4096 → Fin 128 → EReal) (nd : Fin 64 → Fin 128 → EReal)
  (W1 : Fin 64 → Fin 128 → EReal) (b1 : Fin 64 → EReal) (W2 : Fin 8 → Fin 64 → EReal) (b2 : Fin 8 → EReal) (sc : EReal)

/-- The neighbour rows times the tiled node rows. -/
def hidden (l : Fin 4096) (d : Fin 128) : EReal := nb l d * nd (tileRow l) d

/-- The first layer before its nonlinearity: a row of `H` against a row of `W1`, plus the bias, over the scale. -/
def pre (l : Fin 4096) (a : Fin 64) : EReal :=
  Ideal.div ((∑ d : Fin 128, hidden nb nd l d * W1 a d) + b1 a) sc

/-- The first layer's output. -/
def act (l : Fin 4096) (a : Fin 64) : EReal := Ideal.tanh (pre nb nd W1 b1 sc l a)

/-- The second layer: hop `h`'s score of row `l`. -/
def score (h : Fin 8) (l : Fin 4096) : EReal := (∑ a : Fin 64, act nb nd W1 b1 sc l a * W2 h a) + b2 h

/-- The shift of hop `h`'s softmax: the largest score, joined with `−∞` once more (both programs take this second maximum). -/
def top (h : Fin 8) : EReal :=
  max negInf ((Finset.univ : Finset (Fin 4096)).fold max negInf fun l => score nb nd W1 b1 W2 b2 sc h l)

/-- A shifted score's exponential. -/
def expo (h : Fin 8) (l : Fin 4096) : EReal := Ideal.exp (score nb nd W1 b1 W2 b2 sc h l - top nb nd W1 b1 W2 b2 sc h)

/-- The softmax's denominator. -/
def denom (h : Fin 8) : EReal := ∑ l : Fin 4096, expo nb nd W1 b1 W2 b2 sc h l

/-- The attention weights: the softmax of hop `h`'s scores along the rows. -/
def att (h : Fin 8) (l : Fin 4096) : EReal := Ideal.div (expo nb nd W1 b1 W2 b2 sc h l) (denom nb nd W1 b1 W2 b2 sc h)

/-- The Gram matrix of the hops' weight rows. -/
def gram (h g : Fin 8) : EReal := ∑ l : Fin 4096, att nb nd W1 b1 W2 b2 sc h l * att nb nd W1 b1 W2 b2 sc g l

end Batch

section Arrays

variable (node : (⟨3, ![64, 64, 128]⟩ : Shape).Idx → EReal) (neigh : (⟨3, ![64, 4096, 128]⟩ : Shape).Idx → EReal)
  (W1 : (⟨2, ![64, 128]⟩ : Shape).Idx → EReal) (b1 : (⟨1, ![64]⟩ : Shape).Idx → EReal)
  (W2 : (⟨2, ![8, 64]⟩ : Shape).Idx → EReal) (b2 : (⟨1, ![8]⟩ : Shape).Idx → EReal) (sc : EReal)

/-- Batch `b`'s attention weights, from the whole arrays: `neigh` is the neighbour array already viewed as
    64 × 4096 × 128. -/
def attAt (b : Fin 64) (h : Fin 8) (l : Fin 4096) : EReal :=
  att (fun l d => neigh (ix3 b l d)) (fun t d => node (ix3 b t d)) (fun a d => W1 (ix2 a d)) (fun a => b1 (ix1 a))
    (fun h a => W2 (ix2 h a)) (fun h => b2 (ix1 h)) sc h l

/-- Batch `b`'s Gram matrix, from the whole arrays. -/
def gramAt (b : Fin 64) (h g : Fin 8) : EReal :=
  gram (fun l d => neigh (ix3 b l d)) (fun t d => node (ix3 b t d)) (fun a d => W1 (ix2 a d)) (fun a => b1 (ix1 a))
    (fun h a => W2 (ix2 h a)) (fun h => b2 (ix1 h)) sc h g

/-- The attention weights as a 64 × 8 × 4096 array. -/
def attArr : (⟨3, ![64, 8, 4096]⟩ : Shape).Idx → EReal :=
  fun i => attAt node neigh W1 b1 W2 b2 sc (i 0) (i 1) (i 2)

/-- The Gram matrices as a 64 × 8 × 8 array. -/
def gramArr : (⟨3, ![64, 8, 8]⟩ : Shape).Idx → EReal :=
  fun i => gramAt node neigh W1 b1 W2 b2 sc (i 0) (i 1) (i 2)

theorem attArr_ix3 (b : Fin 64) (h : Fin 8) (l : Fin 4096) :
    attArr node neigh W1 b1 W2 b2 sc (ix3 b h l) = attAt node neigh W1 b1 W2 b2 sc b h l := rfl

theorem gramArr_ix3 (b : Fin 64) (h g : Fin 8) :
    gramArr node neigh W1 b1 W2 b2 sc (ix3 b h g) = gramAt node neigh W1 b1 W2 b2 sc b h g := rfl

end Arrays

end Cert.Attn

end
-- ==== Proof.KGram.lean ====
/-
  The Gram matrix of an 8 × 4096 vector `P` as the body computes it: the product of `P` with itself contracted along
  the 4096 axis, into a zero accumulator, under a leading unit axis. At (0, h, g) it is Σ_l P h l · P g l.
-/
import proofs.«178731_j48395691491479_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gram

open Cert.KernelIdeal Cert.KernelIdeal.Gen Idealize.ShloMosaic Idealize.ShloMosaic.ValueIdx

/-- The left operand is read at the output's row … -/
theorem lhs_0 (i : S8x8.Idx) (q : dot_S8x4096_S8x4096_S8x8_1_1_0_0_n_n.contr.Idx) :
    (dot_S8x4096_S8x4096_S8x8_1_1_0_0_n_n.lhsIdx i q 0).val = (i 0).val := by
  unfold DotDims.lhsIdx
  rw [dif_neg (show ¬(0 : Fin S8x4096.rank) ∈ dot_S8x4096_S8x4096_S8x8_1_1_0_0_n_n.lhsBatch by decide), dif_pos (show (0 : Fin S8x4096.rank) ∈ dot_S8x4096_S8x4096_S8x8_1_1_0_0_n_n.lhsNonContracting by decide)]
  rfl
/-- … and at the contraction index; -/
theorem lhs_1 (i : S8x8.Idx) (q : dot_S8x4096_S8x4096_S8x8_1_1_0_0_n_n.contr.Idx) :
    (dot_S8x4096_S8x4096_S8x8_1_1_0_0_n_n.lhsIdx i q 1).val = (q ⟨0, by decide⟩).val :=
  dot_S8x4096_S8x4096_S8x8_1_1_0_0_n_n.lhsIdx_val_of_single rfl i q
/-- the right operand at the output's column … -/
theorem rhs_0 (i : S8x8.Idx) (q : dot_S8x4096_S8x4096_S8x8_1_1_0_0_n_n.contr.Idx) :
    (dot_S8x4096_S8x4096_S8x8_1_1_0_0_n_n.rhsIdx i q 0).val = (i 1).val := by
  unfold DotDims.rhsIdx
  rw [dif_neg (show ¬(0 : Fin S8x4096.rank) ∈ dot_S8x4096_S8x4096_S8x8_1_1_0_0_n_n.rhsBatch by decide), dif_pos (show (0 : Fin S8x4096.rank) ∈ dot_S8x4096_S8x4096_S8x8_1_1_0_0_n_n.rhsNonContracting by decide)]
  rfl
/-- … and at the contraction index. -/
theorem rhs_1 (i : S8x8.Idx) (q : dot_S8x4096_S8x4096_S8x8_1_1_0_0_n_n.contr.Idx) :
    (dot_S8x4096_S8x4096_S8x8_1_1_0_0_n_n.rhsIdx i q 1).val = (q ⟨0, by decide⟩).val :=
  dot_S8x4096_S8x4096_S8x8_1_1_0_0_n_n.rhsIdx_val_of_single rfl i q

/-- The product into the zero accumulator at (h, g): the sum over the 4096 axis of the two rows' products. -/
theorem matmul_at (P : FVec Ideal S8x4096 .f32) (h g : Fin 8) :
    matmul dot_S8x4096_S8x4096_S8x8_1_1_0_0_n_n (some .fp32) P P (constant (F := Ideal) S8x8 .f32 0x00000000#32) (ix2 h g)
      = ∑ l : Fin 4096, P (ix2 h l) * P (ix2 g l) := by
  simp only [matmul]
  rw [Ideal.matmul_constant_zero_apply, ← Equiv.sum_comp (contrEquiv1 dot_S8x4096_S8x4096_S8x8_1_1_0_0_n_n 4096 rfl rfl).symm]
  refine Finset.sum_congr rfl fun k _ => ?_
  have hk := contrEquiv1_symm_val dot_S8x4096_S8x4096_S8x8_1_1_0_0_n_n 4096 rfl rfl k
  have el : dot_S8x4096_S8x4096_S8x8_1_1_0_0_n_n.lhsIdx (ix2 h g) ((contrEquiv1 dot_S8x4096_S8x4096_S8x8_1_1_0_0_n_n 4096 rfl rfl).symm k) = ix2 h k := funext fun a => Fin.ext (by
    match a with
    | ⟨0, _⟩ => exact lhs_0 _ _
    | ⟨1, _⟩ => exact (lhs_1 _ _).trans hk)
  have er : dot_S8x4096_S8x4096_S8x8_1_1_0_0_n_n.rhsIdx (ix2 h g) ((contrEquiv1 dot_S8x4096_S8x4096_S8x8_1_1_0_0_n_n 4096 rfl rfl).symm k) = ix2 g k := funext fun a => Fin.ext (by
    match a with
    | ⟨0, _⟩ => exact rhs_0 _ _
    | ⟨1, _⟩ => exact (rhs_1 _ _).trans hk)
  rw [el, er]

/-- The stored Gram block at (0, h, g), for a vector `P` known entry by entry as `f`. -/
theorem gram_at (P : FVec Ideal S8x4096 .f32) (f : Fin 8 → Fin 4096 → EReal)
    (hP : ∀ (h : Fin 8) (l : Fin 4096), P (ix2 h l) = f h l) (h g : Fin 8) :
    shapeCast S1x8x8 (matmul dot_S8x4096_S8x4096_S8x8_1_1_0_0_n_n (some .fp32) P P (constant (F := Ideal) S8x8 .f32 0x00000000#32)) shapeCasts_S8x8_S1x8x8
        (ix3 (0 : Fin 1) h g)
      = ∑ l : Fin 4096, f h l * f g l := by
  rw [shapeCast_ab_1ab_apply, matmul_at]
  exact Finset.sum_congr rfl fun l _ => by rw [hP, hP]

end Cert.KernelIdeal.Gram

end
-- ==== Proof.KBody.lean ====
/-
  One grid point's results at an index. The body loads the batch's neighbour block `x0` (1 × 4096 × 128), node block
  `x1` (1 × 64 × 128), the weights `x2` (64 × 128), `x4` (8 × 64), the biases `x3` (1 × 64), `x5` (8 × 1) and the scale `x6`
  (1 × 1), and stores the attention weights (1 × 8 × 4096) and their Gram matrix (1 × 8 × 8). Read at an index over the
  extended reals they are the batch functions `Attn.att` and `Attn.gram` of those blocks.

  The body is read stage by stage: the tiled products, the first layer, its hyperbolic tangent, the second layer's scores, the
  shifted exponentials, their row sums and the quotient; each stage at an index is the specification's function of the same name.
-/
import proofs.«178731_j48395691491479_1_alg».proof.Proof.Gen.KernelIdeal.Frame
import proofs.«178731_j48395691491479_1_alg».proof.Proof.Spec
import proofs.«178731_j48395691491479_1_alg».proof.Proof.KGram
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## Layout operations of the body read at an index -/

/-- Row `l = n·64 + t` of the node block tiled under the 64 neighbours is node row `t`. -/
theorem tile_at (v : Vec Ideal S1x64x128 .f32) (h1 : S1x64x128.ShapeCasts S64x128) (h2 : S64x128.ShapeCasts S1x64x128)
    (h3 : S1x64x128.ShapeCasts S1x64x128) (hb : S1x64x128.Broadcasts S64x64x128) (h4 : S64x64x128.ShapeCasts S4096x128)
    (l : Fin 4096) (d : Fin 128) :
    shapeCast S4096x128 (broadcastTo S64x64x128 (shapeCast S1x64x128 (shapeCast S1x64x128 (shapeCast S64x128 v h1) h2) h3) hb) h4
        (ix2 l d)
      = v (ix3 (0 : Fin 1) (Attn.tileRow l) d) := by
  rw [shapeCast_self, shapeCast_shapeCast]
  refine (shapeCast_apply _ h4 (ix2 l d) (ix3 (⟨l.val / 64, by omega⟩ : Fin 64) (Attn.tileRow l) d) ?_).trans ?_
  · rw [Shape.rowMajor_val_three, Shape.rowMajor_val_two]
    show (l.val / 64 * 64 + l.val % 64) * 128 + d.val = l.val * 128 + d.val
    omega
  · refine broadcastTo_apply v hb _ _ fun a => ?_
    match a with
    | ⟨0, _⟩ => rfl
    | ⟨1, _⟩ => rfl
    | ⟨2, _⟩ => rfl

/-- The one scale word spread over the 4096 × 64 block. -/
theorem bcast_scale_at (v : Vec Ideal S1x1 .f32) (hb : S1x1.Broadcasts S4096x64) (l : Fin 4096) (a : Fin 64) :
    broadcastTo S4096x64 v hb (ix2 l a) = v (ix2 (0 : Fin 1) (0 : Fin 1)) := by
  refine broadcastTo_apply v hb _ _ fun ax => ?_
  match ax with
  | ⟨0, _⟩ => rfl
  | ⟨1, _⟩ => rfl

/-- A column spread along the rows' 4096 entries. -/
theorem bcast_col_at {α : Type} (v : S8x1.Idx → α) (hb : S8x1.Broadcasts S8x4096) (h : Fin 8) (l : Fin 4096) :
    broadcastTo S8x4096 v hb (ix2 h l) = v (ix2 h (0 : Fin 1)) := by
  refine broadcastTo_apply v hb _ _ fun ax => ?_
  match ax with
  | ⟨0, _⟩ => rfl
  | ⟨1, _⟩ => rfl

/-- A vector of 8 viewed as a column. -/
theorem col_at {α : Type} (v : S8.Idx → α) (hc : S8.ShapeCasts S8x1) (h : Fin 8) (u : Fin 1) :
    shapeCast S8x1 v hc (ix2 h u) = v (ix1 h) :=
  shapeCast_apply v hc _ _ (by
    have hu : u.val = 0 := by omega
    rw [Shape.rowMajor_val_two, Shape.rowMajor_val_one]
    show h.val = h.val * 1 + u.val
    omega)

/-! ## The two linear layers' products read at an index -/

/-- First layer: the left operand is read at the output's row … -/
theorem lhs1_0 (i : S4096x64.Idx) (q : dot_S4096x128_S64x128_S4096x64_1_1_0_0_n_n.contr.Idx) :
    (dot_S4096x128_S64x128_S4096x64_1_1_0_0_n_n.lhsIdx i q 0).val = (i 0).val := by
  unfold DotDims.lhsIdx
  rw [dif_neg (show ¬(0 : Fin S4096x128.rank) ∈ dot_S4096x128_S64x128_S4096x64_1_1_0_0_n_n.lhsBatch by decide), dif_pos (show (0 : Fin S4096x128.rank) ∈ dot_S4096x128_S64x128_S4096x64_1_1_0_0_n_n.lhsNonContracting by decide)]
  rfl
/-- … and at the contraction index; -/
theorem lhs1_1 (i : S4096x64.Idx) (q : dot_S4096x128_S64x128_S4096x64_1_1_0_0_n_n.contr.Idx) :
    (dot_S4096x128_S64x128_S4096x64_1_1_0_0_n_n.lhsIdx i q 1).val = (q ⟨0, by decide⟩).val :=
  dot_S4096x128_S64x128_S4096x64_1_1_0_0_n_n.lhsIdx_val_of_single rfl i q
/-- the right operand at the output's column … -/
theorem rhs1_0 (i : S4096x64.Idx) (q : dot_S4096x128_S64x128_S4096x64_1_1_0_0_n_n.contr.Idx) :
    (dot_S4096x128_S64x128_S4096x64_1_1_0_0_n_n.rhsIdx i q 0).val = (i 1).val := by
  unfold DotDims.rhsIdx
  rw [dif_neg (show ¬(0 : Fin S64x128.rank) ∈ dot_S4096x128_S64x128_S4096x64_1_1_0_0_n_n.rhsBatch by decide), dif_pos (show (0 : Fin S64x128.rank) ∈ dot_S4096x128_S64x128_S4096x64_1_1_0_0_n_n.rhsNonContracting by decide)]
  rfl
/-- … and at the contraction index. -/
theorem rhs1_1 (i : S4096x64.Idx) (q : dot_S4096x128_S64x128_S4096x64_1_1_0_0_n_n.contr.Idx) :
    (dot_S4096x128_S64x128_S4096x64_1_1_0_0_n_n.rhsIdx i q 1).val = (q ⟨0, by decide⟩).val :=
  dot_S4096x128_S64x128_S4096x64_1_1_0_0_n_n.rhsIdx_val_of_single rfl i q

/-- The first layer's product into the zero accumulator at (l, a): row `l` of the left operand against row `a` of the right. -/
theorem mm1_at (A : FVec Ideal S4096x128 .bf16) (B : FVec Ideal S64x128 .bf16) (l : Fin 4096) (a : Fin 64) :
    matmul dot_S4096x128_S64x128_S4096x64_1_1_0_0_n_n none A B (constant (F := Ideal) S4096x64 .f32 0x00000000#32) (ix2 l a)
      = ∑ d : Fin 128, A (ix2 l d) * B (ix2 a d) := by
  simp only [matmul]
  rw [Ideal.matmul_constant_zero_apply, ← Equiv.sum_comp (contrEquiv1 dot_S4096x128_S64x128_S4096x64_1_1_0_0_n_n 128 rfl rfl).symm]
  refine Finset.sum_congr rfl fun k _ => ?_
  have hk := contrEquiv1_symm_val dot_S4096x128_S64x128_S4096x64_1_1_0_0_n_n 128 rfl rfl k
  have el : dot_S4096x128_S64x128_S4096x64_1_1_0_0_n_n.lhsIdx (ix2 l a) ((contrEquiv1 dot_S4096x128_S64x128_S4096x64_1_1_0_0_n_n 128 rfl rfl).symm k) = ix2 l k := funext fun ax => Fin.ext (by
    match ax with
    | ⟨0, _⟩ => exact lhs1_0 _ _
    | ⟨1, _⟩ => exact (lhs1_1 _ _).trans hk)
  have er : dot_S4096x128_S64x128_S4096x64_1_1_0_0_n_n.rhsIdx (ix2 l a) ((contrEquiv1 dot_S4096x128_S64x128_S4096x64_1_1_0_0_n_n 128 rfl rfl).symm k) = ix2 a k := funext fun ax => Fin.ext (by
    match ax with
    | ⟨0, _⟩ => exact rhs1_0 _ _
    | ⟨1, _⟩ => exact (rhs1_1 _ _).trans hk)
  rw [el, er]

/-- Second layer: the left operand is read at the output's row … -/
theorem lhs2_0 (i : S8x4096.Idx) (q : dot_S8x64_S4096x64_S8x4096_1_1_0_0_n_n.contr.Idx) :
    (dot_S8x64_S4096x64_S8x4096_1_1_0_0_n_n.lhsIdx i q 0).val = (i 0).val := by
  unfold DotDims.lhsIdx
  rw [dif_neg (show ¬(0 : Fin S8x64.rank) ∈ dot_S8x64_S4096x64_S8x4096_1_1_0_0_n_n.lhsBatch by decide), dif_pos (show (0 : Fin S8x64.rank) ∈ dot_S8x64_S4096x64_S8x4096_1_1_0_0_n_n.lhsNonContracting by decide)]
  rfl
/-- … and at the contraction index; -/
theorem lhs2_1 (i : S8x4096.Idx) (q : dot_S8x64_S4096x64_S8x4096_1_1_0_0_n_n.contr.Idx) :
    (dot_S8x64_S4096x64_S8x4096_1_1_0_0_n_n.lhsIdx i q 1).val = (q ⟨0, by decide⟩).val :=
  dot_S8x64_S4096x64_S8x4096_1_1_0_0_n_n.lhsIdx_val_of_single rfl i q
/-- the right operand at the output's column … -/
theorem rhs2_0 (i : S8x4096.Idx) (q : dot_S8x64_S4096x64_S8x4096_1_1_0_0_n_n.contr.Idx) :
    (dot_S8x64_S4096x64_S8x4096_1_1_0_0_n_n.rhsIdx i q 0).val = (i 1).val := by
  unfold DotDims.rhsIdx
  rw [dif_neg (show ¬(0 : Fin S4096x64.rank) ∈ dot_S8x64_S4096x64_S8x4096_1_1_0_0_n_n.rhsBatch by decide), dif_pos (show (0 : Fin S4096x64.rank) ∈ dot_S8x64_S4096x64_S8x4096_1_1_0_0_n_n.rhsNonContracting by decide)]
  rfl
/-- … and at the contraction index. -/
theorem rhs2_1 (i : S8x4096.Idx) (q : dot_S8x64_S4096x64_S8x4096_1_1_0_0_n_n.contr.Idx) :
    (dot_S8x64_S4096x64_S8x4096_1_1_0_0_n_n.rhsIdx i q 1).val = (q ⟨0, by decide⟩).val :=
  dot_S8x64_S4096x64_S8x4096_1_1_0_0_n_n.rhsIdx_val_of_single rfl i q

/-- The second layer's product into the zero accumulator at (h, l): row `h` of the weights against row `l` of the activations. -/
theorem mm2_at (A : FVec Ideal S8x64 .bf16) (B : FVec Ideal S4096x64 .bf16) (h : Fin 8) (l : Fin 4096) :
    matmul dot_S8x64_S4096x64_S8x4096_1_1_0_0_n_n none A B (constant (F := Ideal) S8x4096 .f32 0x00000000#32) (ix2 h l)
      = ∑ a : Fin 64, A (ix2 h a) * B (ix2 l a) := by
  simp only [matmul]
  rw [Ideal.matmul_constant_zero_apply, ← Equiv.sum_comp (contrEquiv1 dot_S8x64_S4096x64_S8x4096_1_1_0_0_n_n 64 rfl rfl).symm]
  refine Finset.sum_congr rfl fun k _ => ?_
  have hk := contrEquiv1_symm_val dot_S8x64_S4096x64_S8x4096_1_1_0_0_n_n 64 rfl rfl k
  have el : dot_S8x64_S4096x64_S8x4096_1_1_0_0_n_n.lhsIdx (ix2 h l) ((contrEquiv1 dot_S8x64_S4096x64_S8x4096_1_1_0_0_n_n 64 rfl rfl).symm k) = ix2 h k := funext fun ax => Fin.ext (by
    match ax with
    | ⟨0, _⟩ => exact lhs2_0 _ _
    | ⟨1, _⟩ => exact (lhs2_1 _ _).trans hk)
  have er : dot_S8x64_S4096x64_S8x4096_1_1_0_0_n_n.rhsIdx (ix2 h l) ((contrEquiv1 dot_S8x64_S4096x64_S8x4096_1_1_0_0_n_n 64 rfl rfl).symm k) = ix2 l k := funext fun ax => Fin.ext (by
    match ax with
    | ⟨0, _⟩ => exact rhs2_0 _ _
    | ⟨1, _⟩ => exact (rhs2_1 _ _).trans hk)
  rw [el, er]

/-! ## The row reductions read at an index -/

/-- The index a reduction along the rows' 4096 entries reads: row `h`, entry `l`. -/
theorem lift_row (hr : S8x4096.Reduces [1] S8) (h : Fin 8) (l : Fin 4096) : hr.lift (ix1 h) l = ix2 h l :=
  funext fun c => Fin.ext (by
    match c with
    | ⟨0, _⟩ => rfl
    | ⟨1, _⟩ => rfl)

/-- A row's maximum, started from `−∞`. -/
theorem rowmax_at (src : FVec Ideal S8x4096 .f32) (hr : S8x4096.Reduces [1] S8) (hφ : FKind.Formats .f32)
    (hacc : (0xFF800000#32 : BitVec 32) = 0xFF800000#32) (h : Fin 8) :
    multiReduction .maximumf [1] S8 src 0xFF800000#32 hr hφ hacc (ix1 h)
      = (Finset.univ : Finset (Fin 4096)).fold max Attn.negInf fun l => src (ix2 h l) :=
  (Ideal.multiReduction_maximumf_single src _ hr hφ hacc (ix1 h)).trans
    (congrArg (fun f : Fin 4096 → EReal => (Finset.univ : Finset (Fin 4096)).fold max Attn.negInf f)
      (funext fun l => congrArg src (lift_row hr h l)))

/-- A row's sum. -/
theorem rowsum_at (src : FVec Ideal S8x4096 .f32) (hr : S8x4096.Reduces [1] S8) (hφ : FKind.Formats .f32)
    (hacc : (0x00000000#32 : BitVec 32) = 0x00000000#32) (h : Fin 8) :
    multiReduction .add [1] S8 src 0x00000000#32 hr hφ hacc (ix1 h) = ∑ l : Fin 4096, src (ix2 h l) :=
  (Ideal.multiReduction_add_single src _ hr hφ hacc (ix1 h)).trans
    (Finset.sum_congr rfl fun l _ => congrArg src (lift_row hr h l))

/-! ## The body's stages -/

/-- An exponential of a vector, at an index. -/
theorem exp_at {s : Shape} (v : FVec Ideal s .f32) (i : s.Idx) : exp v i = Ideal.exp (v i) := rfl
/-- A hyperbolic tangent of a vector, at an index. -/
theorem tanh_at {s : Shape} (v : FVec Ideal s .f32) (i : s.Idx) : tanh v i = Ideal.tanh (v i) := rfl

/-- The neighbour rows times the tiled node rows, as the body forms them. -/
def hidV (x0 : Vec Ideal S1x4096x128 .f32) (x1 : Vec Ideal S1x64x128 .f32) : FVec Ideal S4096x128 .f32 :=
  mulf (shapeCast S4096x128 x0 shapeCasts_S1x4096x128_S4096x128)
    (shapeCast S4096x128 (broadcastTo S64x64x128 (shapeCast S1x64x128 (shapeCast S1x64x128
      (shapeCast S64x128 x1 shapeCasts_S1x64x128_S64x128) shapeCasts_S64x128_S1x64x128) shapeCasts_S1x64x128_S1x64x128)
      broadcasts_S1x64x128_S64x64x128) shapeCasts_S64x64x128_S4096x128)

theorem hidV_at (x0 : Vec Ideal S1x4096x128 .f32) (x1 : Vec Ideal S1x64x128 .f32) (l : Fin 4096) (d : Fin 128) :
    hidV x0 x1 (ix2 l d) = Attn.hidden (fun l d => x0 (ix3 (0 : Fin 1) l d)) (fun t d => x1 (ix3 (0 : Fin 1) t d)) l d := by
  unfold hidV
  rw [mulf_apply, shapeCast_1ab_ab_apply, tile_at]
  rfl

/-- The first layer before its nonlinearity, from the products `H`. -/
def preV (H : FVec Ideal S4096x128 .f32) (x2 : Vec Ideal S64x128 .bf16) (x3 : Vec Ideal S1x64 .f32) (x6 : Vec Ideal S1x1 .f32) :
    FVec Ideal S4096x64 .f32 :=
  divf (addf (matmul dot_S4096x128_S64x128_S4096x64_1_1_0_0_n_n none (truncf .bf16 H bitsLt_bf16_f32)
        (shapeCast S64x128 x2 shapeCasts_S64x128_S64x128 : FVec Ideal S64x128 .bf16) (constant (F := Ideal) S4096x64 .f32 0x00000000#32))
      (broadcastTo S4096x64 (shapeCast S1x64 x3 shapeCasts_S1x64_S1x64) broadcasts_S1x64_S4096x64))
    (broadcastTo S4096x64 (shapeCast S1x1 x6 shapeCasts_S1x1_S1x1) broadcasts_S1x1_S4096x64)

theorem preV_at (H : FVec Ideal S4096x128 .f32) (x2 : Vec Ideal S64x128 .bf16) (x3 : Vec Ideal S1x64 .f32) (x6 : Vec Ideal S1x1 .f32)
    (l : Fin 4096) (a : Fin 64) :
    preV H x2 x3 x6 (ix2 l a)
      = Ideal.div ((∑ d : Fin 128, (H (ix2 l d) : EReal) * (x2 (ix2 a d) : EReal)) + (x3 (ix2 (0 : Fin 1) a) : EReal))
          (x6 (ix2 (0 : Fin 1) (0 : Fin 1))) := by
  unfold preV
  rw [divf_apply, addf_apply, mm1_at, shapeCast_self, shapeCast_self, shapeCast_self, broadcastTo_1b_ab_apply, bcast_scale_at]
  rfl

/-- The second layer's scores, from the first layer's output `T`. -/
def scoreV (T : FVec Ideal S4096x64 .f32) (x4 : Vec Ideal S8x64 .bf16) (x5 : Vec Ideal S8x1 .f32) : FVec Ideal S8x4096 .f32 :=
  addf (matmul dot_S8x64_S4096x64_S8x4096_1_1_0_0_n_n none (shapeCast S8x64 x4 shapeCasts_S8x64_S8x64 : FVec Ideal S8x64 .bf16)
      (truncf .bf16 T bitsLt_bf16_f32) (constant (F := Ideal) S8x4096 .f32 0x00000000#32))
    (broadcastTo S8x4096 (shapeCast S8x1 x5 shapeCasts_S8x1_S8x1) broadcasts_S8x1_S8x4096)

theorem scoreV_at (T : FVec Ideal S4096x64 .f32) (x4 : Vec Ideal S8x64 .bf16) (x5 : Vec Ideal S8x1 .f32) (h : Fin 8) (l : Fin 4096) :
    scoreV T x4 x5 (ix2 h l)
      = (∑ a : Fin 64, (T (ix2 l a) : EReal) * (x4 (ix2 h a) : EReal)) + (x5 (ix2 h (0 : Fin 1)) : EReal) := by
  unfold scoreV
  rw [addf_apply, mm2_at, shapeCast_self, shapeCast_self, bcast_col_at]
  exact congrArg (· + (x5 (ix2 h (0 : Fin 1)) : EReal)) (Finset.sum_congr rfl fun a _ => mul_comm _ _)

/-- The shifted scores' exponentials, from the scores `S`. -/
def expoV (S : FVec Ideal S8x4096 .f32) : FVec Ideal S8x4096 .f32 :=
  exp (subf S (broadcastTo S8x4096 (shapeCast S8x1
    (maximumf (broadcast S8 (Scalar.ofBits (F := Ideal) .f32 0xFF800000#32))
      (multiReduction .maximumf [1] S8 S 0xFF800000#32 reduces_S8x4096_S8 (.inl rfl) rfl))
    shapeCasts_S8_S8x1) broadcasts_S8x1_S8x4096))

theorem expoV_at (S : FVec Ideal S8x4096 .f32) (h : Fin 8) (l : Fin 4096) :
    expoV S (ix2 h l)
      = Ideal.exp (S (ix2 h l) - max Attn.negInf ((Finset.univ : Finset (Fin 4096)).fold max Attn.negInf fun l => S (ix2 h l))) := by
  unfold expoV
  rw [exp_at, subf_apply, bcast_col_at, col_at, maximumf_apply, broadcast_apply, rowmax_at]
  rfl

/-- The quotient by the row sums, at an index. -/
theorem pay1_at (v36 : FVec Ideal S8x4096 .f32) (v37 : FVec Ideal S8 .f32) (h : Fin 8) (l : Fin 4096) :
    k0_pay1 v36 v37 (ix2 h l) = Ideal.div (v36 (ix2 h l)) (v37 (ix1 h)) := by
  show divf v36 (broadcastTo S8x4096 (shapeCast S8x1 v37 shapeCasts_S8_S8x1) broadcasts_S8x1_S8x4096) (ix2 h l) = _
  rw [divf_apply, bcast_col_at, col_at]

/-- The body's exponentials are these stages composed. -/
theorem pay4_eq (x0 : Vec Ideal S1x4096x128 .f32) (x1 : Vec Ideal S1x64x128 .f32) (x2 : Vec Ideal S64x128 .bf16)
    (x3 : Vec Ideal S1x64 .f32) (x6 : Vec Ideal S1x1 .f32) (x4 : Vec Ideal S8x64 .bf16) (x5 : Vec Ideal S8x1 .f32) :
    k0_pay4 (F := Ideal) x0 x1 x2 x3 x6 x4 x5 = expoV (scoreV (tanh (preV (hidV x0 x1) x2 x3 x6)) x4 x5) := rfl

/-! ## The stages against the specification -/

section Spec

variable (x0 : Vec Ideal S1x4096x128 .f32) (x1 : Vec Ideal S1x64x128 .f32) (x2 : Vec Ideal S64x128 .bf16)
  (x3 : Vec Ideal S1x64 .f32) (x4 : Vec Ideal S8x64 .bf16) (x5 : Vec Ideal S8x1 .f32) (x6 : Vec Ideal S1x1 .f32)

/-- The first layer's output. -/
theorem act_at (l : Fin 4096) (a : Fin 64) :
    tanh (preV (hidV x0 x1) x2 x3 x6) (ix2 l a)
      = Attn.act (fun l d => x0 (ix3 (0 : Fin 1) l d)) (fun t d => x1 (ix3 (0 : Fin 1) t d)) (fun a d => x2 (ix2 a d))
          (fun a => x3 (ix2 (0 : Fin 1) a)) (x6 (ix2 (0 : Fin 1) (0 : Fin 1))) l a := by
  rw [tanh_at, preV_at]
  simp only [hidV_at]
  rfl

/-- The second layer's scores. -/
theorem score_at (h : Fin 8) (l : Fin 4096) :
    scoreV (tanh (preV (hidV x0 x1) x2 x3 x6)) x4 x5 (ix2 h l)
      = Attn.score (fun l d => x0 (ix3 (0 : Fin 1) l d)) (fun t d => x1 (ix3 (0 : Fin 1) t d)) (fun a d => x2 (ix2 a d))
          (fun a => x3 (ix2 (0 : Fin 1) a)) (fun h a => x4 (ix2 h a)) (fun h => x5 (ix2 h (0 : Fin 1)))
          (x6 (ix2 (0 : Fin 1) (0 : Fin 1))) h l := by
  rw [scoreV_at]
  simp only [act_at]
  rfl

/-- The shifted scores' exponentials. -/
theorem pay4_at (h : Fin 8) (l : Fin 4096) :
    k0_pay4 (F := Ideal) x0 x1 x2 x3 x6 x4 x5 (ix2 h l)
      = Attn.expo (fun l d => x0 (ix3 (0 : Fin 1) l d)) (fun t d => x1 (ix3 (0 : Fin 1) t d)) (fun a d => x2 (ix2 a d))
          (fun a => x3 (ix2 (0 : Fin 1) a)) (fun h a => x4 (ix2 h a)) (fun h => x5 (ix2 h (0 : Fin 1)))
          (x6 (ix2 (0 : Fin 1) (0 : Fin 1))) h l := by
  rw [pay4_eq, expoV_at]
  simp only [score_at]
  rfl

/-- Their row sums. -/
theorem pay5_at (h : Fin 8) :
    k0_pay5 (F := Ideal) x0 x1 x2 x3 x6 x4 x5 (ix1 h)
      = Attn.denom (fun l d => x0 (ix3 (0 : Fin 1) l d)) (fun t d => x1 (ix3 (0 : Fin 1) t d)) (fun a d => x2 (ix2 a d))
          (fun a => x3 (ix2 (0 : Fin 1) a)) (fun h a => x4 (ix2 h a)) (fun h => x5 (ix2 h (0 : Fin 1)))
          (x6 (ix2 (0 : Fin 1) (0 : Fin 1))) h :=
  (rowsum_at (k0_pay4 (F := Ideal) x0 x1 x2 x3 x6 x4 x5) reduces_S8x4096_S8 (.inl rfl) rfl h).trans
    (Finset.sum_congr rfl fun l _ => pay4_at x0 x1 x2 x3 x4 x5 x6 h l)

/-- The attention weights. -/
theorem att_at (h : Fin 8) (l : Fin 4096) :
    k0_pay1 (k0_pay4 (F := Ideal) x0 x1 x2 x3 x6 x4 x5) (k0_pay5 (F := Ideal) x0 x1 x2 x3 x6 x4 x5) (ix2 h l)
      = Attn.att (fun l d => x0 (ix3 (0 : Fin 1) l d)) (fun t d => x1 (ix3 (0 : Fin 1) t d)) (fun a d => x2 (ix2 a d))
          (fun a => x3 (ix2 (0 : Fin 1) a)) (fun h a => x4 (ix2 h a)) (fun h => x5 (ix2 h (0 : Fin 1)))
          (x6 (ix2 (0 : Fin 1) (0 : Fin 1))) h l := by
  rw [pay1_at, pay4_at, pay5_at]
  rfl

end Spec

/-! ## From the staging buffers to the payloads -/

theorem zero3 : (![0, 0, 0] : Fin 3 → Nat) = fun _ => 0 := funext fun a => by fin_cases a <;> rfl
theorem zero2 : (![0, 0] : Fin 2 → Nat) = fun _ => 0 := funext fun a => by fin_cases a <;> rfl

/-- The attention window's buffer after the body is the quotient under a leading unit axis. -/
theorem out7_eq (x0 : Vec Ideal S1x4096x128 .f32) (x1 : Vec Ideal S1x64x128 .f32) (x2 : Vec Ideal S64x128 .bf16)
    (x3 : Vec Ideal S1x64 .f32) (x4 : Vec Ideal S8x64 .bf16) (x5 : Vec Ideal S8x1 .f32) (x6 : Vec Ideal S1x1 .f32) :
    out0_7 (F := Ideal) x0 x1 x2 x3 x4 x5 x6
      = k0_pay2 (k0_pay4 (F := Ideal) x0 x1 x2 x3 x6 x4 x5) (k0_pay5 (F := Ideal) x0 x1 x2 x3 x6 x4 x5) := by
  unfold out0_7
  rw [View.canon_unit_zero zero3]
  simp only [View.ld_unit_zero (S := S1x4096x128) zero3, View.ld_unit_zero (S := S1x64x128) zero3,
    View.ld_unit_zero (S := S64x128) zero2, View.ld_unit_zero (S := S1x64) zero2, View.ld_unit_zero (S := S1x1) zero2,
    View.ld_unit_zero (S := S8x64) zero2, View.ld_unit_zero (S := S8x1) zero2]

/-- The Gram window's buffer after the body is the quotient's Gram matrix under a leading unit axis. -/
theorem out8_eq (x0 : Vec Ideal S1x4096x128 .f32) (x1 : Vec Ideal S1x64x128 .f32) (x2 : Vec Ideal S64x128 .bf16)
    (x3 : Vec Ideal S1x64 .f32) (x4 : Vec Ideal S8x64 .bf16) (x5 : Vec Ideal S8x1 .f32) (x6 : Vec Ideal S1x1 .f32) :
    out0_8 (F := Ideal) x0 x1 x2 x3 x4 x5 x6
      = k0_pay3 (k0_pay4 (F := Ideal) x0 x1 x2 x3 x6 x4 x5) (k0_pay5 (F := Ideal) x0 x1 x2 x3 x6 x4 x5) := by
  unfold out0_8
  rw [View.canon_unit_zero zero3]
  simp only [View.ld_unit_zero (S := S1x4096x128) zero3, View.ld_unit_zero (S := S1x64x128) zero3,
    View.ld_unit_zero (S := S64x128) zero2, View.ld_unit_zero (S := S1x64) zero2, View.ld_unit_zero (S := S1x1) zero2,
    View.ld_unit_zero (S := S8x64) zero2, View.ld_unit_zero (S := S8x1) zero2]

/-- The stored attention block at (0, h, l). -/
theorem out7_at (x0 : Vec Ideal S1x4096x128 .f32) (x1 : Vec Ideal S1x64x128 .f32) (x2 : Vec Ideal S64x128 .bf16)
    (x3 : Vec Ideal S1x64 .f32) (x4 : Vec Ideal S8x64 .bf16) (x5 : Vec Ideal S8x1 .f32) (x6 : Vec Ideal S1x1 .f32)
    (h : Fin 8) (l : Fin 4096) :
    out0_7 (F := Ideal) x0 x1 x2 x3 x4 x5 x6 (ix3 (0 : Fin 1) h l)
      = Attn.att (fun l d => x0 (ix3 (0 : Fin 1) l d)) (fun t d => x1 (ix3 (0 : Fin 1) t d)) (fun a d => x2 (ix2 a d))
          (fun a => x3 (ix2 (0 : Fin 1) a)) (fun h a => x4 (ix2 h a)) (fun h => x5 (ix2 h (0 : Fin 1)))
          (x6 (ix2 (0 : Fin 1) (0 : Fin 1))) h l := by
  rw [out7_eq]
  show shapeCast S1x8x4096 (k0_pay1 (k0_pay4 (F := Ideal) x0 x1 x2 x3 x6 x4 x5) (k0_pay5 (F := Ideal) x0 x1 x2 x3 x6 x4 x5))
    shapeCasts_S8x4096_S1x8x4096 (ix3 (0 : Fin 1) h l) = _
  rw [shapeCast_ab_1ab_apply, att_at]

/-- The stored Gram block at (0, h, g). -/
theorem out8_at (x0 : Vec Ideal S1x4096x128 .f32) (x1 : Vec Ideal S1x64x128 .f32) (x2 : Vec Ideal S64x128 .bf16)
    (x3 : Vec Ideal S1x64 .f32) (x4 : Vec Ideal S8x64 .bf16) (x5 : Vec Ideal S8x1 .f32) (x6 : Vec Ideal S1x1 .f32)
    (h g : Fin 8) :
    out0_8 (F := Ideal) x0 x1 x2 x3 x4 x5 x6 (ix3 (0 : Fin 1) h g)
      = Attn.gram (fun l d => x0 (ix3 (0 : Fin 1) l d)) (fun t d => x1 (ix3 (0 : Fin 1) t d)) (fun a d => x2 (ix2 a d))
          (fun a => x3 (ix2 (0 : Fin 1) a)) (fun h a => x4 (ix2 h a)) (fun h => x5 (ix2 h (0 : Fin 1)))
          (x6 (ix2 (0 : Fin 1) (0 : Fin 1))) h g := by
  rw [out8_eq]
  exact Gram.gram_at (k0_pay1 (k0_pay4 (F := Ideal) x0 x1 x2 x3 x6 x4 x5) (k0_pay5 (F := Ideal) x0 x1 x2 x3 x6 x4 x5)) _
    (fun h l => att_at x0 x1 x2 x3 x4 x5 x6 h l) h g

end Cert.KernelIdeal.Body

end
-- ==== Proof.Tail.lean ====
/-
  The last lines of both programs, as functions of the attention weights `A` (64 × 8 × 4096) and of the Gram
  matrices `G` (64 × 8 × 8): the weights summed over the eight hops and laid out 64 × 64 × 64, and the penalty, the sum
  over every batch and entry of `(G − I)²` with `I` the 8 × 8 identity. Both programs apply exactly these operations,
  so the certificate never opens them: equal `A` and `G` give equal results.
-/
import proofs.«178731_j48395691491479_1_alg».proof.Proof.Gen.KernelIdeal
import Idealize.ShloMosaic.PureOps.Ideal

noncomputable section

namespace Cert.KernelIdeal.Tail

open Cert.KernelIdeal Cert.KernelIdeal.Gen Idealize.ShloMosaic

/-- The 8 × 8 identity, repeated for every batch: 1 where the row's number equals the column's. -/
def eye : FVec Ideal S64x8x8 .f32 :=
  broadcastInDim S64x8x8 ![0, 1, 2] bcast_S1x8x8_S64x8x8_0_1_2
    (broadcastInDim S1x8x8 ![1, 2] bcast_S8x8_S1x8x8_1_2
      (uitofp (F := Ideal) .f32 (cmpi .eq (addi (iotaInDim S8x8 32 0) (broadcastInDim S8x8 ![] bcast_S_S8x8 (constantI S_ 32 0#32))) (iotaInDim S8x8 32 1))))

/-- The weights summed over the hops, as 64 × 64 × 64. -/
def hopSum (A : FVec Ideal S64x8x4096 .f32) : FVec Ideal S64x64x64 .f32 :=
  shapeCast S64x64x64 (Host.reduceAdd (F := Ideal) A (constant (F := Ideal) S_ .f32 0x00000000#32) reducesTo_S64x8x4096_S64x4096_d1 h_S_)
    shapeCasts_S64x4096_S64x64x64

/-- The penalty: the sum of the squared entries of `G − I` over every batch. -/
def penalty (G : FVec Ideal S64x8x8 .f32) : FVec Ideal S1 .f32 :=
  shapeCast S1 (Host.reduceAdd (F := Ideal) (mulf (subf G eye) (subf G eye)) (constant (F := Ideal) S_ .f32 0x00000000#32) reducesTo_S64x8x8_S_d0_1_2 h_S_)
    shapeCasts_S_S1

end Cert.KernelIdeal.Tail

end
-- ==== Proof.KHost.lean ====
/-
  The host lines around the kernel's one region. Before it: the neighbour array viewed as 64 × 4096 × 128, the two weight
  matrices (a change of format only), the biases as a row 1 × 64 and a column 8 × 1, and the scale, the square root of the
  first neighbour count as a 1 × 1 array. After it: the shared last lines (`Tail.hopSum`, `Tail.penalty`) applied to the
  two arrays the region wrote.
-/
import proofs.«178731_j48395691491479_1_alg».proof.Proof.Gen.KernelIdeal.Frame
import proofs.«178731_j48395691491479_1_alg».proof.Proof.Tail
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The scale: the square root of the first entry of the integer array, as a number. -/
def scale (x2 : (⟨S64, .i32⟩ : BufTy).Contents (Elt Ideal)) : EReal :=
  (Host.sqrt (F := Ideal) (sitofp .f32 (shapeCast S_ (extractStridedSlice S1 ![0] x2 slices_S64_S1_0) shapeCasts_S1_S_))) ix0

/-- A vector viewed as a column: entry `(i, u)` of the column is entry `i` of the vector, the row-major position
    `i · 1 + u` being `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A single number viewed as a 1 × 1 array: its one entry is the number (both row-major positions are 0). -/
theorem shapeCast_0_11_apply {α : Type} (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  shapeCast_apply x h _ _ (by
    have hu : u.val = 0 := by omega
    have hv : v.val = 0 := by omega
    rw [Shape.rowMajor_val_two]
    show (Shape.rowMajorPi _ _).val = u.val * 1 + v.val
    rw [Shape.rowMajorPi_zero, hu, hv])

/-- The region finds the neighbour array viewed as 64 × 4096 × 128. -/
theorem V_v0 (c : Dev nD) :
    V m c main_v0 = shapeCast S64x4096x128 (m ((c.tc : Thread nD τ).loc main_arg1)) shapeCasts_S64x64x8192_S64x4096x128 := by
  show StableHlo.after hostOps0 (fun b => m (c, b)) (Proc.devRef .tc main_v0) = _
  after_results
  rfl

/-- The first weight matrix, entry by entry (the change of format is the identity). -/
theorem V_v1 (c : Dev nD) (a : Fin 64) (d : Fin 128) :
    V m c main_v1 (ix2 a d) = m ((c.tc : Thread nD τ).loc main_arg3) (ix2 a d) := by
  show StableHlo.after hostOps0 (fun b => m (c, b)) (Proc.devRef .tc main_v1) (ix2 a d) = _
  after_results
  rfl

/-- The second weight matrix, entry by entry. -/
theorem V_v2 (c : Dev nD) (h : Fin 8) (a : Fin 64) :
    V m c main_v2 (ix2 h a) = m ((c.tc : Thread nD τ).loc main_arg5) (ix2 h a) := by
  show StableHlo.after hostOps0 (fun b => m (c, b)) (Proc.devRef .tc main_v2) (ix2 h a) = _
  after_results
  rfl

/-- The first bias as a row. -/
theorem V_v3 (c : Dev nD) (a : Fin 64) :
    V m c main_v3 (ix2 (0 : Fin 1) a) = m ((c.tc : Thread nD τ).loc main_arg4) (ix1 a) := by
  show StableHlo.after hostOps0 (fun b => m (c, b)) (Proc.devRef .tc main_v3) (ix2 (0 : Fin 1) a) = _
  after_results
  exact shapeCast_a_1a_apply _ _ 0 a

/-- The second bias as a column. -/
theorem V_v4 (c : Dev nD) (h : Fin 8) :
    V m c main_v4 (ix2 h (0 : Fin 1)) = m ((c.tc : Thread nD τ).loc main_arg6) (ix1 h) := by
  show StableHlo.after hostOps0 (fun b => m (c, b)) (Proc.devRef .tc main_v4) (ix2 h (0 : Fin 1)) = _
  after_results
  exact shapeCast_a_a1_apply _ _ h 0

/-- The scale as the region finds it. -/
theorem V_v9 (c : Dev nD) :
    V m c main_v9 (ix2 (0 : Fin 1) (0 : Fin 1)) = scale (m ((c.tc : Thread nD τ).loc main_arg2)) := by
  show StableHlo.after hostOps0 (fun b => m (c, b)) (Proc.devRef .tc main_v9) (ix2 (0 : Fin 1) (0 : Fin 1)) = _
  after_results
  exact shapeCast_0_11_apply _ _ 0 0

/-- After the region, the attention array's reference holds what the region's last point left there. -/
theorem arr7 (c : Dev nD) :
    Pipeline.withArrays spec0 c (V0 m c) (fun w => (dats m 0 c).arrAt w cfg0.N) (Proc.devRef .tc main_v10_0)
      = (dats m 0 c).arrAt 7 cfg0.N :=
  Pipeline.withArrays_arr spec0 launch0.win.arr_inj c _ _ 7

/-- After the region, the Gram array's reference holds what the region's last point left there. -/
theorem arr8 (c : Dev nD) :
    Pipeline.withArrays spec0 c (V0 m c) (fun w => (dats m 0 c).arrAt w cfg0.N) (Proc.devRef .tc main_v10_1)
      = (dats m 0 c).arrAt 8 cfg0.N :=
  Pipeline.withArrays_arr spec0 launch0.win.arr_inj c _ _ 8

/-- The first result: the last lines' sum over the hops of the attention array the region wrote. -/
theorem tail_v12 (c : Dev nD) :
    Pipeline.afterTail₀ cfgs (dats m) 0 (V0 m) [hostOps1] c main_v12 = Tail.hopSum ((dats m 0 c).arrAt 7 cfg0.N) := by
  unfold Pipeline.afterTail₀
  show StableHlo.after hostOps1 _ (Proc.devRef .tc main_v12) = _
  after_results
  exact congrArg Tail.hopSum (arr7 m c)

/-- The last result: the penalty of the Gram array the region wrote. -/
theorem tail_v24 (c : Dev nD) :
    Pipeline.afterTail₀ cfgs (dats m) 0 (V0 m) [hostOps1] c main_v24 = Tail.penalty ((dats m 0 c).arrAt 8 cfg0.N) := by
  unfold Pipeline.afterTail₀
  show StableHlo.after hostOps1 _ (Proc.devRef .tc main_v24) = _
  after_results
  exact congrArg Tail.penalty (arr8 m c)

end Cert.KernelIdeal.Host

end
-- ==== Proof.KValue.lean ====
/-
  The kernel's arrays after its run. Grid point `t` is batch `t`: it reads the batch's neighbour and node blocks and the
  whole weights, biases and scale, and writes batch `t`'s block of the attention array and of the Gram array. Each
  block is the specification's batch function of the argument arrays, the 64 blocks cover both arrays, and the host's
  last lines are applied to them.
-/
import proofs.«178731_j48395691491479_1_alg».proof.Proof.KBody
import proofs.«178731_j48395691491479_1_alg».proof.Proof.KHost

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The neighbour array in the view both programs use. -/
abbrev neighOf (c : Dev nD) : FVec Ideal S64x4096x128 .f32 :=
  shapeCast S64x4096x128 (m ((c.tc : Thread nD τ).loc main_arg1)) shapeCasts_S64x64x8192_S64x4096x128

/-- The attention weights of the argument arrays. -/
abbrev attOf (c : Dev nD) : FVec Ideal S64x8x4096 .f32 :=
  Attn.attArr (m ((c.tc : Thread nD τ).loc main_arg0)) (neighOf m c) (m ((c.tc : Thread nD τ).loc main_arg3))
    (m ((c.tc : Thread nD τ).loc main_arg4)) (m ((c.tc : Thread nD τ).loc main_arg5)) (m ((c.tc : Thread nD τ).loc main_arg6))
    (Host.scale (m ((c.tc : Thread nD τ).loc main_arg2)))

/-- The Gram matrices of the argument arrays. -/
abbrev gramOf (c : Dev nD) : FVec Ideal S64x8x8 .f32 :=
  Attn.gramArr (m ((c.tc : Thread nD τ).loc main_arg0)) (neighOf m c) (m ((c.tc : Thread nD τ).loc main_arg3))
    (m ((c.tc : Thread nD τ).loc main_arg4)) (m ((c.tc : Thread nD τ).loc main_arg5)) (m ((c.tc : Thread nD τ).loc main_arg6))
    (Host.scale (m ((c.tc : Thread nD τ).loc main_arg2)))

/-! ## Grid point `t` is batch `t` -/

theorem hz3 : (![0, 0, 0] : Fin 3 → Nat) = fun _ => 0 := funext fun a => by fin_cases a <;> rfl

/-- The printed index maps over the 64 points: the neighbour, node, attention and Gram windows are at block `t` of
    their first axis and block 0 of the others; the weights, biases and scale stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The batch a grid point works on. -/
def batchOf (t : Fin cfg0.N) : Fin 64 := Fin.cast N_0 t

theorem batchOf_val (t : Fin cfg0.N) : (batchOf t).val = t.val := rfl

/-! ## What the region's blocks hold, in terms of the argument arrays -/

/-- The neighbour block of point `t` is batch `t`'s rows of the viewed neighbour array. -/
theorem blk0_at (c : Dev nD) (t : Fin cfg0.N) (l : Fin 4096) (d : Fin 128) :
    iblk m c 0 t (ix3 (0 : Fin 1) l d) = neighOf m c (ix3 (batchOf t) l d) := by
  obtain ⟨e0, e1, e2, -⟩ := idx_facts t
  show V m c main_v0 (((cfg0.win 0).blk t).view.emb (ix3 (0 : Fin 1) l d)) = _
  rw [Host.V_v0]
  refine congrArg _ ?_
  funext a; apply Fin.ext
  match a with
  | ⟨0, _⟩ => show win0_0.index t (0 : Fin 3) * 1 + 1 * 0 = t.val; omega
  | ⟨1, _⟩ => show win0_0.index t (1 : Fin 3) * 4096 + 1 * l.val = l.val; omega
  | ⟨2, _⟩ => show win0_0.index t (2 : Fin 3) * 128 + 1 * d.val = d.val; omega

/-- The node block of point `t` is batch `t`'s node rows. -/
theorem blk1_at (c : Dev nD) (t : Fin cfg0.N) (s : Fin 64) (d : Fin 128) :
    iblk m c 1 t (ix3 (0 : Fin 1) s d) = m ((c.tc : Thread nD τ).loc main_arg0) (ix3 (batchOf t) s d) := by
  obtain ⟨-, -, -, e0, e1, e2, -⟩ := idx_facts t
  show V m c main_arg0 (((cfg0.win 1).blk t).view.emb (ix3 (0 : Fin 1) s d)) = _
  rw [V_main_arg0]
  refine congrArg _ ?_
  funext a; apply Fin.ext
  match a with
  | ⟨0, _⟩ => show win0_1.index t (0 : Fin 3) * 1 + 1 * 0 = t.val; omega
  | ⟨1, _⟩ => show win0_1.index t (1 : Fin 3) * 64 + 1 * s.val = s.val; omega
  | ⟨2, _⟩ => show win0_1.index t (2 : Fin 3) * 128 + 1 * d.val = d.val; omega

/-- The first weight block is the whole first weight matrix. -/
theorem blk2_at (c : Dev nD) (t : Fin cfg0.N) (a : Fin 64) (d : Fin 128) :
    iblk m c 2 t (ix2 a d) = m ((c.tc : Thread nD τ).loc main_arg3) (ix2 a d) := by
  obtain ⟨-, -, -, -, -, -, e0, e1, -⟩ := idx_facts t
  show V m c main_v1 (((cfg0.win 2).blk t).view.emb (ix2 a d)) = _
  rw [← Host.V_v1 m c a d]
  refine congrArg _ ?_
  funext k; apply Fin.ext
  match k with
  | ⟨0, _⟩ => show win0_2.index t (0 : Fin 2) * 64 + 1 * a.val = a.val; omega
  | ⟨1, _⟩ => show win0_2.index t (1 : Fin 2) * 128 + 1 * d.val = d.val; omega

/-- The first bias block is the first bias, as a row. -/
theorem blk3_at (c : Dev nD) (t : Fin cfg0.N) (a : Fin 64) :
    iblk m c 3 t (ix2 (0 : Fin 1) a) = m ((c.tc : Thread nD τ).loc main_arg4) (ix1 a) := by
  obtain ⟨-, -, -, -, -, -, -, -, e0, e1, -⟩ := idx_facts t
  show V m c main_v3 (((cfg0.win 3).blk t).view.emb (ix2 (0 : Fin 1) a)) = _
  rw [← Host.V_v3 m c a]
  refine congrArg _ ?_
  funext k; apply Fin.ext
  match k with
  | ⟨0, _⟩ => show win0_3.index t (0 : Fin 2) * 1 + 1 * 0 = 0; omega
  | ⟨1, _⟩ => show win0_3.index t (1 : Fin 2) * 64 + 1 * a.val = a.val; omega

/-- The second weight block is the whole second weight matrix. -/
theorem blk4_at (c : Dev nD) (t : Fin cfg0.N) (h : Fin 8) (a : Fin 64) :
    iblk m c 4 t (ix2 h a) = m ((c.tc : Thread nD τ).loc main_arg5) (ix2 h a) := by
  obtain ⟨-, -, -, -, -, -, -, -, -, -, e0, e1, -⟩ := idx_facts t
  show V m c main_v2 (((cfg0.win 4).blk t).view.emb (ix2 h a)) = _
  rw [← Host.V_v2 m c h a]
  refine congrArg _ ?_
  funext k; apply Fin.ext
  match k with
  | ⟨0, _⟩ => show win0_4.index t (0 : Fin 2) * 8 + 1 * h.val = h.val; omega
  | ⟨1, _⟩ => show win0_4.index t (1 : Fin 2) * 64 + 1 * a.val = a.val; omega

/-- The second bias block is the second bias, as a column. -/
theorem blk5_at (c : Dev nD) (t : Fin cfg0.N) (h : Fin 8) :
    iblk m c 5 t (ix2 h (0 : Fin 1)) = m ((c.tc : Thread nD τ).loc main_arg6) (ix1 h) := by
  obtain ⟨-, -, -, -, -, -, -, -, -, -, -, -, e0, e1, -⟩ := idx_facts t
  show V m c main_v4 (((cfg0.win 5).blk t).view.emb (ix2 h (0 : Fin 1))) = _
  rw [← Host.V_v4 m c h]
  refine congrArg _ ?_
  funext k; apply Fin.ext
  match k with
  | ⟨0, _⟩ => show win0_5.index t (0 : Fin 2) * 8 + 1 * h.val = h.val; omega
  | ⟨1, _⟩ => show win0_5.index t (1 : Fin 2) * 1 + 1 * 0 = 0; omega

/-- The scale block is the scale. -/
theorem blk6_at (c : Dev nD) (t : Fin cfg0.N) :
    iblk m c 6 t (ix2 (0 : Fin 1) (0 : Fin 1)) = Host.scale (m ((c.tc : Thread nD τ).loc main_arg2)) := by
  obtain ⟨-, -, -, -, -, -, -, -, -, -, -, -, -, -, e0, e1, -⟩ := idx_facts t
  show V m c main_v9 (((cfg0.win 6).blk t).view.emb (ix2 (0 : Fin 1) (0 : Fin 1))) = _
  rw [← Host.V_v9 m c]
  refine congrArg _ ?_
  funext k; apply Fin.ext
  match k with
  | ⟨0, _⟩ => show win0_6.index t (0 : Fin 2) * 1 + 1 * 0 = 0; omega
  | ⟨1, _⟩ => show win0_6.index t (1 : Fin 2) * 1 + 1 * 0 = 0; omega

/-! ## What each point writes back -/

/-- Point `t` writes back batch `t`'s block of the attention weights of the argument arrays. -/
theorem flushed7_eq (c : Dev nD) (t : Fin cfg0.N) :
    (dats m 0 c).flushed 7 t = ((cfg0.win 7).blk t).view.read (Elt Ideal) (attOf m c) := by
  show (cfg0.win 7).cut (grid0.coords t) ((dats m 0 c).after 7 t) = _
  rw [after0_7]
  obtain ⟨-, -, -, -, -, -, -, -, -, -, -, -, -, -, -, -, e0, e1, e2, -⟩ := idx_facts t
  funext j
  obtain ⟨z, h, l, rfl⟩ : ∃ (z : Fin 1) (h : Fin 8) (l : Fin 4096), j = ix3 z h l := ⟨j 0, j 1, j 2, eq_ix3 j⟩
  obtain rfl : z = 0 := Subsingleton.elim _ _
  have hemb : ((cfg0.win 7).blk t).view.emb (ix3 (0 : Fin 1) h l) = ix3 (batchOf t) h l := by
    funext a; apply Fin.ext
    match a with
    | ⟨0, _⟩ => show win0_7.index t (0 : Fin 3) * 1 + 1 * 0 = t.val; omega
    | ⟨1, _⟩ => show win0_7.index t (1 : Fin 3) * 8 + 1 * h.val = h.val; omega
    | ⟨2, _⟩ => show win0_7.index t (2 : Fin 3) * 4096 + 1 * l.val = l.val; omega
  show out0_7 (iblk m c 0 t) (iblk m c 1 t) (iblk m c 2 t) (iblk m c 3 t) (iblk m c 4 t) (iblk m c 5 t) (iblk m c 6 t) (ix3 (0 : Fin 1) h l)
    = attOf m c (((cfg0.win 7).blk t).view.emb (ix3 (0 : Fin 1) h l))
  rw [hemb]
  refine (Body.out7_at (iblk m c 0 t) (iblk m c 1 t) (iblk m c 2 t) (iblk m c 3 t) (iblk m c 4 t) (iblk m c 5 t) (iblk m c 6 t) h l).trans ?_
  show _ = Attn.attAt _ _ _ _ _ _ _ (batchOf t) h l
  unfold Attn.attAt
  simp only [blk0_at, blk1_at, blk2_at, blk3_at, blk4_at, blk5_at, blk6_at]

/-- Point `t` writes back batch `t`'s Gram matrix of the argument arrays. -/
theorem flushed8_eq (c : Dev nD) (t : Fin cfg0.N) :
    (dats m 0 c).flushed 8 t = ((cfg0.win 8).blk t).view.read (Elt Ideal) (gramOf m c) := by
  show (cfg0.win 8).cut (grid0.coords t) ((dats m 0 c).after 8 t) = _
  rw [after0_8]
  obtain ⟨-, -, -, -, -, -, -, -, -, -, -, -, -, -, -, -, -, -, -, e0, e1, e2⟩ := idx_facts t
  funext j
  obtain ⟨z, h, g, rfl⟩ : ∃ (z : Fin 1) (h : Fin 8) (g : Fin 8), j = ix3 z h g := ⟨j 0, j 1, j 2, eq_ix3 j⟩
  obtain rfl : z = 0 := Subsingleton.elim _ _
  have hemb : ((cfg0.win 8).blk t).view.emb (ix3 (0 : Fin 1) h g) = ix3 (batchOf t) h g := by
    funext a; apply Fin.ext
    match a with
    | ⟨0, _⟩ => show win0_8.index t (0 : Fin 3) * 1 + 1 * 0 = t.val; omega
    | ⟨1, _⟩ => show win0_8.index t (1 : Fin 3) * 8 + 1 * h.val = h.val; omega
    | ⟨2, _⟩ => show win0_8.index t (2 : Fin 3) * 8 + 1 * g.val = g.val; omega
  show out0_8 (iblk m c 0 t) (iblk m c 1 t) (iblk m c 2 t) (iblk m c 3 t) (iblk m c 4 t) (iblk m c 5 t) (iblk m c 6 t) (ix3 (0 : Fin 1) h g)
    = gramOf m c (((cfg0.win 8).blk t).view.emb (ix3 (0 : Fin 1) h g))
  rw [hemb]
  refine (Body.out8_at (iblk m c 0 t) (iblk m c 1 t) (iblk m c 2 t) (iblk m c 3 t) (iblk m c 4 t) (iblk m c 5 t) (iblk m c 6 t) h g).trans ?_
  show _ = Attn.gramAt _ _ _ _ _ _ _ (batchOf t) h g
  unfold Attn.gramAt
  simp only [blk0_at, blk1_at, blk2_at, blk3_at, blk4_at, blk5_at, blk6_at]

/-! ## The 64 blocks cover both arrays -/

/-- An index of the attention array lies in point `t`'s block iff each coordinate is in the block's range. -/
theorem mem_blk7 (t : Fin cfg0.N) (i : S64x8x4096.Idx) :
    i ∈ ((cfg0.win 7).blk t).view.set ↔ ∀ a : Fin 3, win0_7.index t a * S1x8x4096.size a ≤ (i a).val ∧ (i a).val < win0_7.index t a * S1x8x4096.size a + S1x8x4096.size a := by
  show i ∈ ((View.whole main_v10_0).slice (win0_7.rect t)).set ↔ _
  rw [View.set_slice_whole, Rect.mem_set_unit]
  exact Iff.rfl

/-- The same for the Gram array. -/
theorem mem_blk8 (t : Fin cfg0.N) (i : S64x8x8.Idx) :
    i ∈ ((cfg0.win 8).blk t).view.set ↔ ∀ a : Fin 3, win0_8.index t a * S1x8x8.size a ≤ (i a).val ∧ (i a).val < win0_8.index t a * S1x8x8.size a + S1x8x8.size a := by
  show i ∈ ((View.whole main_v10_1).slice (win0_8.rect t)).set ↔ _
  rw [View.set_slice_whole, Rect.mem_set_unit]
  exact Iff.rfl

/-- Index (b, h, l) is in the block of point `b`. -/
theorem cover7 (i : S64x8x4096.Idx) : ∃ t : Fin cfg0.N, (cfg0.win 7).flush t = true ∧ i ∈ ((cfg0.win 7).blk t).view.set := by
  have h0 : (i 0).val < 64 := (i 0).isLt
  have h1 : (i 1).val < 8 := (i 1).isLt
  have h2 : (i 2).val < 4096 := (i 2).isLt
  refine ⟨Fin.cast N_0.symm ⟨(i 0).val, h0⟩, flush0_7 _, ?_⟩
  obtain ⟨-, -, -, -, -, -, -, -, -, -, -, -, -, -, -, -, e0, e1, e2, -⟩ := idx_facts (Fin.cast N_0.symm ⟨(i 0).val, h0⟩)
  have ev : (Fin.cast N_0.symm (⟨(i 0).val, h0⟩ : Fin 64)).val = (i 0).val := rfl
  rw [mem_blk7]
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 8 ≤ (i 1).val ∧ (i 1).val < win0_7.index _ (1 : Fin 3) * 8 + 8; omega
  | ⟨2, _⟩ => show win0_7.index _ (2 : Fin 3) * 4096 ≤ (i 2).val ∧ (i 2).val < win0_7.index _ (2 : Fin 3) * 4096 + 4096; omega

/-- Index (b, h, g) is in the block of point `b`. -/
theorem cover8 (i : S64x8x8.Idx) : ∃ t : Fin cfg0.N, (cfg0.win 8).flush t = true ∧ i ∈ ((cfg0.win 8).blk t).view.set := by
  have h0 : (i 0).val < 64 := (i 0).isLt
  have h1 : (i 1).val < 8 := (i 1).isLt
  have h2 : (i 2).val < 8 := (i 2).isLt
  refine ⟨Fin.cast N_0.symm ⟨(i 0).val, h0⟩, flush0_8 _, ?_⟩
  obtain ⟨-, -, -, -, -, -, -, -, -, -, -, -, -, -, -, -, -, -, -, e0, e1, e2⟩ := idx_facts (Fin.cast N_0.symm ⟨(i 0).val, h0⟩)
  have ev : (Fin.cast N_0.symm (⟨(i 0).val, h0⟩ : Fin 64)).val = (i 0).val := rfl
  rw [mem_blk8]
  intro a
  match a with
  | ⟨0, _⟩ => show win0_8.index _ (0 : Fin 3) * 1 ≤ (i 0).val ∧ (i 0).val < win0_8.index _ (0 : Fin 3) * 1 + 1; omega
  | ⟨1, _⟩ => show win0_8.index _ (1 : Fin 3) * 8 ≤ (i 1).val ∧ (i 1).val < win0_8.index _ (1 : Fin 3) * 8 + 8; omega
  | ⟨2, _⟩ => show win0_8.index _ (2 : Fin 3) * 8 ≤ (i 2).val ∧ (i 2).val < win0_8.index _ (2 : Fin 3) * 8 + 8; omega

/-- The attention array after the run. -/
theorem final7 (c : Dev nD) : (dats m 0 c).arrAt 7 cfg0.N = attOf m c :=
  (dats m 0 c).arrAt_eq_of_cover 7 (attOf m c) (fun t _ => flushed7_eq m c t) cover7

/-- The Gram array after the run. -/
theorem final8 (c : Dev nD) : (dats m 0 c).arrAt 8 cfg0.N = gramOf m c :=
  (dats m 0 c).arrAt_eq_of_cover 8 (gramOf m c) (fun t _ => flushed8_eq m c t) cover8

/-- The run with its four results named. -/
theorem run : θ_run defs (onTc (τ := τ) (main (F := Ideal))) ⟨m, fun _ => 0, ρ⟩ fun r => ∀ c : Dev nD,
      r.2.mem ((c.tc : Thread nD τ).loc main_v12) = Tail.hopSum (attOf m c)
      ∧ r.2.mem ((c.tc : Thread nD τ).loc main_v10_0) = attOf m c
      ∧ r.2.mem ((c.tc : Thread nD τ).loc main_v0) = neighOf m c
      ∧ r.2.mem ((c.tc : Thread nD τ).loc main_v24) = Tail.penalty (gramOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v12 (Pipeline.mem_restRefs_of main_v12 (by decide) (by decide))).trans
        ((Host.tail_v12 m c).trans (congrArg Tail.hopSum (final7 m c))),
      ((h c).1 7).trans (final7 m c),
      ((h c).1 0).trans (((dats m 0 c).arrAt_in 0 rfl _).trans ((A_eq m c 0).trans (Host.V_v0 m c))),
      ((h c).2 main_v24 (Pipeline.mem_restRefs_of main_v24 (by decide) (by decide))).trans
        ((Host.tail_v24 m c).trans (congrArg Tail.penalty (final8 m c))),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.RefStages.lean ====
/-
  The reference, read up to the attention weights and their Gram matrices: its stages are the batch functions of the
  specification applied to the argument arrays (the neighbour array through the same 64 × 4096 × 128 view, the scale
  through the same square root), and its last lines are the shared ones.
-/
import proofs.«178731_j48395691491479_1_alg».proof.Proof.Gen.ReferenceIdeal.Read
import proofs.«178731_j48395691491479_1_alg».proof.Proof.Spec
import proofs.«178731_j48395691491479_1_alg».proof.Proof.Tail
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Idealize.ShloMosaic.Lib.ValueIdxRank6

noncomputable section

namespace Cert.ReferenceIdeal.Stages

open Cert.ReferenceIdeal Cert.ReferenceIdeal.Gen Cert.ReferenceIdeal.Read Idealize.ShloMosaic Idealize.ShloMosaic.ValueIdx

variable (x0 : (⟨S64x64x128, .f32⟩ : BufTy).Contents (Elt Ideal)) (x1 : (⟨S64x64x8192, .f32⟩ : BufTy).Contents (Elt Ideal))
  (x2 : (⟨S64, .i32⟩ : BufTy).Contents (Elt Ideal)) (x3 : (⟨S64x128, .f32⟩ : BufTy).Contents (Elt Ideal))
  (x4 : (⟨S64, .f32⟩ : BufTy).Contents (Elt Ideal)) (x5 : (⟨S8x64, .f32⟩ : BufTy).Contents (Elt Ideal))
  (x6 : (⟨S8, .f32⟩ : BufTy).Contents (Elt Ideal))

/-! ### One batch's slices of the argument arrays -/

/-- Batch `b`'s neighbour rows, through the 64 × 4096 × 128 view. -/
abbrev nb (b : Fin 64) : Fin 4096 → Fin 128 → EReal := fun l d => val_main_v0 (F := Ideal) x1 (ix3 b l d)
/-- Batch `b`'s node rows. -/
abbrev nd (b : Fin 64) : Fin 64 → Fin 128 → EReal := fun t d => x0 (ix3 b t d)
/-- The first layer's weights and bias, the second layer's, and the scale. -/
abbrev w1 : Fin 64 → Fin 128 → EReal := fun a d => x3 (ix2 a d)
abbrev bb1 : Fin 64 → EReal := fun a => x4 (ix1 a)
abbrev w2 : Fin 8 → Fin 64 → EReal := fun h a => x5 (ix2 h a)
abbrev bb2 : Fin 8 → EReal := fun h => x6 (ix1 h)
abbrev sc : EReal := val_main_v8 (F := Ideal) x2 ix0

/-- Two indices of rank 1, 2, 3 or 6 with the same coordinates are equal. -/
local macro "coords" : tactic => `(tactic| (funext c; fin_cases c <;> rfl))

/-! ### The tiled node rows: row `l` of the 4096 is node row `l mod 64` -/

/-- The rank-6 view of the node array: the three unit axes carry nothing. -/
theorem v1_at (b t : Fin 64) (d : Fin 128) :
    val_main_v1 (F := Ideal) x0 (ix6 (0 : Fin 1) b (0 : Fin 1) t (0 : Fin 1) d) = x0 (ix3 b t d) := by
  unfold val_main_v1
  refine shapeCast_apply x0 shapeCasts_S64x64x128_S1x64x1x64x1x128 _ (ix3 b t d) ?_
  rw [Shape.rowMajor_val_three, Shape.rowMajor_val_six]
  show (b.val * 64 + t.val) * 128 + d.val = ((((0 * 64 + b.val) * 1 + 0) * 64 + t.val) * 1 + 0) * 128 + d.val
  omega

/-- The broadcast along the neighbour axis `n` repeats the node row. -/
theorem v2_at (b n t : Fin 64) (d : Fin 128) :
    val_main_v2 (F := Ideal) x0 (ix6 (0 : Fin 1) b n t (0 : Fin 1) d) = x0 (ix3 b t d) := by
  rw [val_main_v2_apply, ← v1_at x0 b t d]
  exact congrArg _ (by coords)

/-- Row `l = n·64 + t` of the flattened block is the broadcast's entry `(n, t)`, that is node row `t = l mod 64`. -/
theorem v3_at (b : Fin 64) (l : Fin 4096) (d : Fin 128) :
    val_main_v3 (F := Ideal) x0 (ix3 b l d) = x0 (ix3 b (Attn.tileRow l) d) := by
  unfold val_main_v3
  rw [← v2_at x0 b ⟨l.val / 64, by have := l.isLt; omega⟩ (Attn.tileRow l) d]
  refine shapeCast_apply _ shapeCasts_S1x64x64x64x1x128_S64x4096x128 _ _ ?_
  rw [Shape.rowMajor_val_three, Shape.rowMajor_val_six]
  show ((((0 * 64 + b.val) * 64 + l.val / 64) * 64 + l.val % 64) * 1 + 0) * 128 + d.val = (b.val * 4096 + l.val) * 128 + d.val
  omega

/-! ### The first layer -/

theorem v4_at (b : Fin 64) (l : Fin 4096) (d : Fin 128) :
    val_main_v4 (F := Ideal) x0 x1 (ix3 b l d) = Attn.hidden (nb x1 b) (nd x0 b) l d := by
  show val_main_v0 (F := Ideal) x1 (ix3 b l d) * val_main_v3 (F := Ideal) x0 (ix3 b l d) = _
  rw [v3_at]; rfl

/-- The first layer's product: a row of those products against a row of the first weights. -/
theorem v9_at (b : Fin 64) (l : Fin 4096) (a : Fin 64) :
    val_main_v9 (F := Ideal) x0 x1 x3 (ix3 b l a)
      = ∑ d : Fin 128, Attn.hidden (nb x1 b) (nd x0 b) l d * x3 (ix2 a d) := by
  rw [val_main_v9_apply]
  refine Finset.sum_congr rfl fun k _ => ?_
  rw [show lidx_main_v9 (ix3 b l a) k = ix3 b l k from by coords,
    show ridx_main_v9 (ix3 b l a) k = ix2 a k from by coords, v4_at]

/-- The first bias, the same for every batch and row. -/
theorem v11_at (b : Fin 64) (l : Fin 4096) (a : Fin 64) :
    val_main_v11 (F := Ideal) x4 (ix3 b l a) = x4 (ix1 a) := by
  rw [val_main_v11_apply, val_main_v10_apply]
  exact congrArg x4 (by coords)

/-- The scale, the same at every index. -/
theorem v13_at (b : Fin 64) (l : Fin 4096) (a : Fin 64) :
    val_main_v13 (F := Ideal) x2 (ix3 b l a) = val_main_v8 (F := Ideal) x2 ix0 := by
  rw [val_main_v13_apply]

/-- The first layer before its nonlinearity. -/
theorem v14_at (b : Fin 64) (l : Fin 4096) (a : Fin 64) :
    val_main_v14 (F := Ideal) x0 x1 x2 x3 x4 (ix3 b l a)
      = Attn.pre (nb x1 b) (nd x0 b) (w1 x3) (bb1 x4) (sc x2) l a := by
  show Ideal.div (val_main_v9 (F := Ideal) x0 x1 x3 (ix3 b l a) + val_main_v11 (F := Ideal) x4 (ix3 b l a))
    (val_main_v13 (F := Ideal) x2 (ix3 b l a)) = _
  rw [v9_at, v11_at, v13_at]; rfl

/-- The first layer's output. -/
theorem v15_at (b : Fin 64) (l : Fin 4096) (a : Fin 64) :
    val_main_v15 (F := Ideal) x0 x1 x2 x3 x4 (ix3 b l a)
      = Attn.act (nb x1 b) (nd x0 b) (w1 x3) (bb1 x4) (sc x2) l a := by
  show Ideal.tanh (val_main_v14 (F := Ideal) x0 x1 x2 x3 x4 (ix3 b l a)) = _
  rw [v14_at]; rfl

/-! ### The second layer, one row of scores per hop -/

theorem v16_at (b : Fin 64) (l : Fin 4096) (h : Fin 8) :
    val_main_v16 (F := Ideal) x0 x1 x2 x3 x4 x5 (ix3 b l h)
      = ∑ a : Fin 64, Attn.act (nb x1 b) (nd x0 b) (w1 x3) (bb1 x4) (sc x2) l a * x5 (ix2 h a) := by
  rw [val_main_v16_apply]
  refine Finset.sum_congr rfl fun k _ => ?_
  rw [show lidx_main_v16 (ix3 b l h) k = ix3 b l k from by coords,
    show ridx_main_v16 (ix3 b l h) k = ix2 h k from by coords, v15_at]

/-- The second bias, the same for every batch and row. -/
theorem v18_at (b : Fin 64) (l : Fin 4096) (h : Fin 8) :
    val_main_v18 (F := Ideal) x6 (ix3 b l h) = x6 (ix1 h) := by
  rw [val_main_v18_apply, val_main_v17_apply]
  exact congrArg x6 (by coords)

/-- Hop `h`'s score of row `l`, stored at (b, l, h). -/
theorem v19_at (b : Fin 64) (l : Fin 4096) (h : Fin 8) :
    val_main_v19 (F := Ideal) x0 x1 x2 x3 x4 x5 x6 (ix3 b l h)
      = Attn.score (nb x1 b) (nd x0 b) (w1 x3) (bb1 x4) (w2 x5) (bb2 x6) (sc x2) h l := by
  show val_main_v16 (F := Ideal) x0 x1 x2 x3 x4 x5 (ix3 b l h) + val_main_v18 (F := Ideal) x6 (ix3 b l h) = _
  rw [v16_at, v18_at]; rfl

/-- The scores with the hops before the rows. -/
theorem v20_at (b : Fin 64) (h : Fin 8) (l : Fin 4096) :
    val_main_v20 (F := Ideal) x0 x1 x2 x3 x4 x5 x6 (ix3 b h l)
      = Attn.score (nb x1 b) (nd x0 b) (w1 x3) (bb1 x4) (w2 x5) (bb2 x6) (sc x2) h l := by
  rw [val_main_v20_apply, show idx_main_v20 (ix3 b h l) = ix3 b l h from by coords, v19_at]

/-! ### The softmax along the rows -/

/-- The maximum of an array's last axis, started from `−∞`, at (b, h): the fold of `max` over that axis's 4096 entries. -/
theorem rowMax_at (x : FVec Ideal S64x8x4096 .f32) (h' : S64x8x4096.ReducesTo [2] S64x8) (hu : 0 < S_.numel)
    (b : Fin 64) (h : Fin 8) :
    Host.reduce FloatOps.maximumf x (constant (F := Ideal) S_ .f32 0xFF800000#32) h' hu (ix2 b h)
      = (Finset.univ : Finset (Fin 4096)).fold max Attn.negInf fun l => x (ix3 b h l) := by
  have hr : S64x8x4096.Reduces [2] S64x8 := by decide
  rw [Host.reduce_eq_fold_single FloatOps.maximumf x _ h' hr hu]
  have hf : (x ∘ hr.lift (ix2 b h)) = fun l : Fin 4096 => x (ix3 b h l) :=
    funext fun l => congrArg x (by funext c; apply Fin.ext; fin_cases c <;> rfl)
  exact congrArg (fun f => Finset.fold max Attn.negInf f (Finset.univ : Finset (Fin 4096))) hf

/-- The maximum over the last axis is the fold of `max` over that axis's 4096 coordinates, started from `−∞`. -/
theorem v21_at (b : Fin 64) (h : Fin 8) :
    val_main_v21 (F := Ideal) x0 x1 x2 x3 x4 x5 x6 (ix2 b h)
      = (Finset.univ : Finset (Fin 4096)).fold max Attn.negInf
          fun l => Attn.score (nb x1 b) (nd x0 b) (w1 x3) (bb1 x4) (w2 x5) (bb2 x6) (sc x2) h l := by
  unfold val_main_v21 val_main_cst
  rw [rowMax_at]
  exact congrArg (fun f => Finset.fold max Attn.negInf f (Finset.univ : Finset (Fin 4096)))
    (funext fun l => v20_at x0 x1 x2 x3 x4 x5 x6 b h l)

/-- The softmax's shift: the row maximum joined with `−∞` once more. -/
theorem v23_at (b : Fin 64) (h : Fin 8) :
    val_main_v23 (F := Ideal) x0 x1 x2 x3 x4 x5 x6 (ix2 b h)
      = Attn.top (nb x1 b) (nd x0 b) (w1 x3) (bb1 x4) (w2 x5) (bb2 x6) (sc x2) h := by
  rw [val_main_v23_apply, Ideal.maximumf_def, v21_at, val_main_v22_apply, val_main_cst_0_apply, Ideal.ofBits_def]
  unfold Attn.top Attn.negInf
  rfl
/-- The shift, the same along a row. -/
theorem v25_at (b : Fin 64) (h : Fin 8) (l : Fin 4096) :
    val_main_v25 (F := Ideal) x0 x1 x2 x3 x4 x5 x6 (ix3 b h l)
      = Attn.top (nb x1 b) (nd x0 b) (w1 x3) (bb1 x4) (w2 x5) (bb2 x6) (sc x2) h := by
  rw [val_main_v25_apply, val_main_v24_apply,
    show idx_main_v24 (idx_main_v25 (ix3 b h l)) = ix2 b h from by coords, v23_at]

/-- A shifted score's exponential. -/
theorem v27_at (b : Fin 64) (h : Fin 8) (l : Fin 4096) :
    val_main_v27 (F := Ideal) x0 x1 x2 x3 x4 x5 x6 (ix3 b h l)
      = Attn.expo (nb x1 b) (nd x0 b) (w1 x3) (bb1 x4) (w2 x5) (bb2 x6) (sc x2) h l := by
  show Ideal.exp (val_main_v20 (F := Ideal) x0 x1 x2 x3 x4 x5 x6 (ix3 b h l) - val_main_v25 (F := Ideal) x0 x1 x2 x3 x4 x5 x6 (ix3 b h l)) = _
  rw [v20_at, v25_at]; rfl

/-- The softmax's denominator: the exponentials summed along the row, the sum starting from zero. -/
theorem v28_at (b : Fin 64) (h : Fin 8) :
    val_main_v28 (F := Ideal) x0 x1 x2 x3 x4 x5 x6 (ix2 b h)
      = Attn.denom (nb x1 b) (nd x0 b) (w1 x3) (bb1 x4) (w2 x5) (bb2 x6) (sc x2) h := by
  rw [val_main_v28_apply, val_main_cst_1_apply, Ideal.ofBits_def, Ideal.ofBits_zero_f32, zero_add]
  refine Finset.sum_congr rfl fun k _ => ?_
  rw [show idx_main_v28 (ix2 b h) k = ix3 b h k from by coords, v27_at]

/-- The denominator, the same along a row. -/
theorem v30_at (b : Fin 64) (h : Fin 8) (l : Fin 4096) :
    val_main_v30 (F := Ideal) x0 x1 x2 x3 x4 x5 x6 (ix3 b h l)
      = Attn.denom (nb x1 b) (nd x0 b) (w1 x3) (bb1 x4) (w2 x5) (bb2 x6) (sc x2) h := by
  rw [val_main_v30_apply, val_main_v29_apply,
    show idx_main_v29 (idx_main_v30 (ix3 b h l)) = ix2 b h from by coords, v28_at]

/-- The attention weights. -/
theorem v31_at (b : Fin 64) (h : Fin 8) (l : Fin 4096) :
    val_main_v31 (F := Ideal) x0 x1 x2 x3 x4 x5 x6 (ix3 b h l)
      = Attn.att (nb x1 b) (nd x0 b) (w1 x3) (bb1 x4) (w2 x5) (bb2 x6) (sc x2) h l := by
  show Ideal.div (val_main_v27 (F := Ideal) x0 x1 x2 x3 x4 x5 x6 (ix3 b h l)) (val_main_v30 (F := Ideal) x0 x1 x2 x3 x4 x5 x6 (ix3 b h l)) = _
  rw [v27_at, v30_at]; rfl

/-- The Gram matrix: hop `h`'s weight row against hop `g`'s. -/
theorem v34_at (b : Fin 64) (h g : Fin 8) :
    val_main_v34 (F := Ideal) x0 x1 x2 x3 x4 x5 x6 (ix3 b h g)
      = Attn.gram (nb x1 b) (nd x0 b) (w1 x3) (bb1 x4) (w2 x5) (bb2 x6) (sc x2) h g := by
  rw [val_main_v34_apply]
  refine Finset.sum_congr rfl fun k _ => ?_
  rw [show lidx_main_v34 (ix3 b h g) k = ix3 b h k from by coords,
    show ridx_main_v34 (ix3 b h g) k = ix3 b g k from by coords, v31_at, v31_at]

/-! ### The interface -/

/-- The reference's attention weights are the specification's. -/
theorem att_eq :
    val_main_v31 (F := Ideal) x0 x1 x2 x3 x4 x5 x6
      = Attn.attArr x0 (val_main_v0 (F := Ideal) x1) x3 x4 x5 x6 (val_main_v8 (F := Ideal) x2 ix0) := by
  funext i
  obtain ⟨b, h, l, rfl⟩ : ∃ b h l, i = ix3 b h l := ⟨_, _, _, eq_ix3 i⟩
  exact v31_at x0 x1 x2 x3 x4 x5 x6 b h l

/-- The reference's Gram matrices are the specification's. -/
theorem gram_eq :
    val_main_v34 (F := Ideal) x0 x1 x2 x3 x4 x5 x6
      = Attn.gramArr x0 (val_main_v0 (F := Ideal) x1) x3 x4 x5 x6 (val_main_v8 (F := Ideal) x2 ix0) := by
  funext i
  obtain ⟨b, h, g, rfl⟩ : ∃ b h g, i = ix3 b h g := ⟨_, _, _, eq_ix3 i⟩
  exact v34_at x0 x1 x2 x3 x4 x5 x6 b h g

/-- The first result is the shared sum over the hops of the attention weights: the same operations on the same operand. -/
theorem hopSum_eq :
    val_main_v33 (F := Ideal) x0 x1 x2 x3 x4 x5 x6
      = Cert.KernelIdeal.Tail.hopSum (val_main_v31 (F := Ideal) x0 x1 x2 x3 x4 x5 x6) := by
  unfold val_main_v33 val_main_v32 val_main_cst_2 Cert.KernelIdeal.Tail.hopSum
  generalize val_main_v31 (F := Ideal) x0 x1 x2 x3 x4 x5 x6 = A
  rfl

/-- The last result is the shared penalty of the Gram matrices: the same operations on the same operand. -/
theorem penalty_eq :
    val_main_v46 (F := Ideal) x0 x1 x2 x3 x4 x5 x6
      = Cert.KernelIdeal.Tail.penalty (val_main_v34 (F := Ideal) x0 x1 x2 x3 x4 x5 x6) := by
  unfold val_main_v46 val_main_v45 val_main_v44 val_main_v43 val_main_cst_3 Cert.KernelIdeal.Tail.penalty
  generalize val_main_v34 (F := Ideal) x0 x1 x2 x3 x4 x5 x6 = G
  unfold val_main_v42 val_main_v41 val_main_v40 val_main_v39 val_main_v38 val_main_v37 val_main_v36 val_main_v35 val_main_c
    Cert.KernelIdeal.Tail.eye
  rfl

end Cert.ReferenceIdeal.Stages

end
-- ==== Proof.lean ====
/-
  The certificate. The kernel computes, one batch per grid point, the attention weights
  A = softmax over the rows of W2 · tanh((H · W1ᵀ + b1) / √n)ᵀ + b2 with H the neighbour rows times the tiled node rows,
  and their Gram matrix A · Aᵀ; the reference computes the same over all batches at once. Over the extended reals the
  two agree index by index (the specification `Cert.Attn`): the kernel's blocks are read in KBody and KValue, the
  reference's stages in RefStages; the only algebra is the order of the two factors in the second layer's products.
  Both programs then apply the same last lines (`Tail.hopSum`, `Tail.penalty`) to equal arrays.
-/
import proofs.«178731_j48395691491479_1_alg».proof.Defs
import proofs.«178731_j48395691491479_1_alg».proof.Proof.Gen.Kernel
import proofs.«178731_j48395691491479_1_alg».proof.Proof.Gen.Kernel.Skeleton
import proofs.«178731_j48395691491479_1_alg».proof.Proof.Gen.Kernel.Launch
import proofs.«178731_j48395691491479_1_alg».proof.Proof.Gen.Kernel.Points
import proofs.«178731_j48395691491479_1_alg».proof.Proof.Gen.Kernel.Frame
import proofs.«178731_j48395691491479_1_alg».proof.Proof.Gen.KernelIdeal
import proofs.«178731_j48395691491479_1_alg».proof.Proof.Gen.KernelIdeal.Skeleton
import proofs.«178731_j48395691491479_1_alg».proof.Proof.Gen.KernelIdeal.Launch
import proofs.«178731_j48395691491479_1_alg».proof.Proof.Gen.KernelIdeal.Points
import proofs.«178731_j48395691491479_1_alg».proof.Proof.Gen.KernelIdeal.Frame
import proofs.«178731_j48395691491479_1_alg».proof.Proof.Gen.ReferenceIdeal
import proofs.«178731_j48395691491479_1_alg».proof.Proof.Gen.Pre_finite_inputs
import proofs.«178731_j48395691491479_1_alg».proof.Proof.Gen.ReferenceIdeal.Run
import proofs.«178731_j48395691491479_1_alg».proof.Proof.Gen.ReferenceIdeal.Read
import proofs.«178731_j48395691491479_1_alg».proof.Proof.KValue
import proofs.«178731_j48395691491479_1_alg».proof.Proof.RefStages
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- The reference's run, its four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The reference's scale is the kernel's: the same square root of the same first entry. -/
theorem scale_eq (x2 : (⟨Cert.KernelIdeal.S64, .i32⟩ : BufTy).Contents (Elt Ideal)) :
    Cert.ReferenceIdeal.Read.val_main_v8 (F := Ideal) x2 ix0 = Cert.KernelIdeal.Host.scale x2 := by
  unfold Cert.ReferenceIdeal.Read.val_main_v8 Cert.ReferenceIdeal.Read.val_main_v7 Cert.ReferenceIdeal.Read.val_main_v6
    Cert.ReferenceIdeal.Read.val_main_v5 Cert.KernelIdeal.Host.scale
  rfl

/-- The reference's view of the neighbour array is the kernel's. -/
theorem neigh_eq (x1 : (⟨Cert.KernelIdeal.S64x64x8192, .f32⟩ : BufTy).Contents (Elt Ideal)) :
    Cert.ReferenceIdeal.Read.val_main_v0 (F := Ideal) x1
      = shapeCast Cert.KernelIdeal.S64x4096x128 x1 Cert.KernelIdeal.Gen.shapeCasts_S64x64x8192_S64x4096x128 := by
  unfold Cert.ReferenceIdeal.Read.val_main_v0
  rfl

/-- From memories that agree on the arguments both programs end with the specification's arrays under the shared last
    lines. -/
theorem algebraic : Cert.algebraic_KernelIdeal_ReferenceIdeal := by
  intro m ρ m' ρ' _ hagree
  refine ⟨fun c => Cert.KernelIdeal.Tail.hopSum (Cert.KernelIdeal.Result.attOf m c), fun c => Cert.KernelIdeal.Result.attOf m c,
    fun c => Cert.KernelIdeal.Result.neighOf m c, fun c => Cert.KernelIdeal.Tail.penalty (Cert.KernelIdeal.Result.gramOf m c),
    Cert.KernelIdeal.Result.run m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨e0, e1, e2, e3, e4, e5, e6⟩ := hagree c
  refine ⟨?_, ?_, ?_, ?_, hargs⟩
  · rw [h0, Cert.ReferenceIdeal.Read.val_main_v33_eq, Cert.ReferenceIdeal.Stages.hopSum_eq, Cert.ReferenceIdeal.Stages.att_eq,
      e0, e1, e2, e3, e4, e5, e6, scale_eq, neigh_eq]
  · rw [h1, Cert.ReferenceIdeal.Read.val_main_v31_eq, Cert.ReferenceIdeal.Stages.att_eq,
      e0, e1, e2, e3, e4, e5, e6, scale_eq, neigh_eq]
  · rw [h2, e1]
  · rw [h3, Cert.ReferenceIdeal.Read.val_main_v46_eq, Cert.ReferenceIdeal.Stages.penalty_eq, Cert.ReferenceIdeal.Stages.gram_eq,
      e0, e1, e2, e3, e4, e5, e6, scale_eq, neigh_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
